-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x6 : Shape := ⟨2, ![16384, 6]⟩
abbrev S6x5 : Shape := ⟨2, ![6, 5]⟩
abbrev S12 : Shape := ⟨1, ![12]⟩
abbrev S2048x6 : Shape := ⟨2, ![2048, 6]⟩
abbrev S2048x2 : Shape := ⟨2, ![2048, 2]⟩
abbrev S_ : Shape := ⟨0, ![]⟩

class Facts : Prop where
  bcast_S_S16384x6 : S_.BroadcastsInDim S16384x6 (![] : Fin 0 → Fin S16384x6.rank)
  reducesTo_S16384x6_S_d0_1 : S16384x6.ReducesTo [0, 1] S_
  h_S_ : 0 < S_.numel
  bcast_S_S6x5 : S_.BroadcastsInDim S6x5 (![] : Fin 0 → Fin S6x5.rank)
  reducesTo_S6x5_S_d0_1 : S6x5.ReducesTo [0, 1] S_
  bcast_S_S12 : S_.BroadcastsInDim S12 (![] : Fin 0 → Fin S12.rank)
  reducesTo_S12_S_d0 : S12.ReducesTo [0] S_
  bcast_S_S2048x6 : S_.BroadcastsInDim S2048x6 (![] : Fin 0 → Fin S2048x6.rank)
  reducesTo_S2048x6_S_d0_1 : S2048x6.ReducesTo [0, 1] S_

variable [Facts]

def fn_part1 {F : FTy → Type} [FloatOps F] (main_arg4 : IVec S2048x6 32) (main_v13 : IVec S_ 1) (main_v16 : IVec S12 1) : IVec S_ 1 :=
  let main_c_5 : IVec S_ 1 := constantI S_ 1 1#1
  let main_v17 : IVec S_ 1 := (fun x v => Host.reduce IntOp.andi x v reducesTo_S12_S_d0 h_S_) main_v16 main_c_5
  let main_v18 : IVec S_ 1 := andi main_v13 main_v17
  let main_c_6 : IVec S_ 32 := constantI S_ 32 0#32
  let main_v19 : IVec S2048x6 32 := broadcastInDim S2048x6 ![] bcast_S_S2048x6 main_c_6
  let main_v20 : IVec S2048x6 1 := cmpi .sge main_arg4 main_v19
  let main_c_7 : IVec S_ 32 := constantI S_ 32 30#32
  let main_v21 : IVec S2048x6 32 := broadcastInDim S2048x6 ![] bcast_S_S2048x6 main_c_7
  let main_v22 : IVec S2048x6 1 := cmpi .slt main_arg4 main_v21
  let main_v23 : IVec S2048x6 1 := andi main_v20 main_v22
  let main_c_8 : IVec S_ 1 := constantI S_ 1 1#1
  let main_v24 : IVec S_ 1 := (fun x v => Host.reduce IntOp.andi x v reducesTo_S2048x6_S_d0_1 h_S_) main_v23 main_c_8
  let main_v25 : IVec S_ 1 := andi main_v18 main_v24
  main_v25

def fn {F : FTy → Type} [FloatOps F] (main_arg0 : FVec F S16384x6 .f32) (main_arg1 : FVec F S6x5 .f32) (main_arg2 : FVec F S6x5 .f32) (main_arg3 : FVec F S12 .f32) (main_arg4 : IVec S2048x6 32) (main_arg5 : IVec S2048x2 32) : IVec S_ 1 :=
  let main_v0 : FVec F S16384x6 .f32 := Host.absf main_arg0
  let main_cst : FVec F S_ .f32 := constant S_ .f32 0x7F800000#32
  let main_v1 : FVec F S16384x6 .f32 := broadcastInDim S16384x6 ![] bcast_S_S16384x6 main_cst
  let main_v2 : IVec S16384x6 1 := cmpf .olt main_v0 main_v1
  let main_c : IVec S_ 1 := constantI S_ 1 1#1
  let main_v3 : IVec S_ 1 := (fun x v => Host.reduce IntOp.andi x v reducesTo_S16384x6_S_d0_1 h_S_) main_v2 main_c
  let main_v4 : FVec F S6x5 .f32 := Host.absf main_arg1
  let main_cst_0 : FVec F S_ .f32 := constant S_ .f32 0x7F800000#32
  let main_v5 : FVec F S6x5 .f32 := broadcastInDim S6x5 ![] bcast_S_S6x5 main_cst_0
  let main_v6 : IVec S6x5 1 := cmpf .olt main_v4 main_v5
  let main_c_1 : IVec S_ 1 := constantI S_ 1 1#1
  let main_v7 : IVec S_ 1 := (fun x v => Host.reduce IntOp.andi x v reducesTo_S6x5_S_d0_1 h_S_) main_v6 main_c_1
  let main_v8 : IVec S_ 1 := andi main_v3 main_v7
  let main_v9 : FVec F S6x5 .f32 := Host.absf main_arg2
  let main_cst_2 : FVec F S_ .f32 := constant S_ .f32 0x7F800000#32
  let main_v10 : FVec F S6x5 .f32 := broadcastInDim S6x5 ![] bcast_S_S6x5 main_cst_2
  let main_v11 : IVec S6x5 1 := cmpf .olt main_v9 main_v10
  let main_c_3 : IVec S_ 1 := constantI S_ 1 1#1
  let main_v12 : IVec S_ 1 := (fun x v => Host.reduce IntOp.andi x v reducesTo_S6x5_S_d0_1 h_S_) main_v11 main_c_3
  let main_v13 : IVec S_ 1 := andi main_v8 main_v12
  let main_v14 : FVec F S12 .f32 := Host.absf main_arg3
  let main_cst_4 : FVec F S_ .f32 := constant S_ .f32 0x7F800000#32
  let main_v15 : FVec F S12 .f32 := broadcastInDim S12 ![] bcast_S_S12 main_cst_4
  let main_v16 : IVec S12 1 := cmpf .olt main_v14 main_v15
  fn_part1 (F := F) main_arg4 main_v13 main_v16
-- ==== Kernel.lean ====
abbrev S16384x6 : Shape := ⟨2, ![16384, 6]⟩
abbrev S6x5 : Shape := ⟨2, ![6, 5]⟩
abbrev S12 : Shape := ⟨1, ![12]⟩
abbrev S2048x6 : Shape := ⟨2, ![2048, 6]⟩
abbrev S2048x2 : Shape := ⟨2, ![2048, 2]⟩
abbrev S6x2048 : Shape := ⟨2, ![6, 2048]⟩
abbrev S30 : Shape := ⟨1, ![30]⟩
abbrev S1x30x1 : Shape := ⟨3, ![1, 30, 1]⟩
abbrev S6x1x2048 : Shape := ⟨3, ![6, 1, 2048]⟩
abbrev S6x30x2048 : Shape := ⟨3, ![6, 30, 2048]⟩
abbrev S_ : Shape := ⟨0, ![]⟩
abbrev S2048x2x1 : Shape := ⟨3, ![2048, 2, 1]⟩
abbrev S2x2048 : Shape := ⟨2, ![2, 2048]⟩
abbrev S2x16384 : Shape := ⟨2, ![2, 16384]⟩
abbrev S1024x6 : Shape := ⟨2, ![1024, 6]⟩
abbrev S2x1024 : Shape := ⟨2, ![2, 1024]⟩
abbrev S1024x1 : Shape := ⟨2, ![1024, 1]⟩
abbrev S1x5 : Shape := ⟨2, ![1, 5]⟩
abbrev S1024x5 : Shape := ⟨2, ![1024, 5]⟩
abbrev S1024x30 : Shape := ⟨2, ![1024, 30]⟩
abbrev S1x30x2048 : Shape := ⟨3, ![1, 30, 2048]⟩
abbrev S30x2048 : Shape := ⟨2, ![30, 2048]⟩
abbrev S1024x2048 : Shape := ⟨2, ![1024, 2048]⟩
abbrev S1024 : Shape := ⟨1, ![1024]⟩
abbrev S1x1024 : Shape := ⟨2, ![1, 1024]⟩
abbrev S16384x2 : Shape := ⟨2, ![16384, 2]⟩

abbrev nBuf : Space → Nat
  | .hbm => 27
  | .vmem => 8
  | .smem => 0
  | _ => 0

abbrev bufTy : (tb : Table) → Fin (tcTables nBuf tb) → BufTy
  | .hbm, ⟨0, _⟩ => ⟨S16384x6, .f32⟩
  | .hbm, ⟨1, _⟩ => ⟨S6x5, .f32⟩
  | .hbm, ⟨2, _⟩ => ⟨S6x5, .f32⟩
  | .hbm, ⟨3, _⟩ => ⟨S12, .f32⟩
  | .hbm, ⟨4, _⟩ => ⟨S2048x6, .i32⟩
  | .hbm, ⟨5, _⟩ => ⟨S2048x2, .i32⟩
  | .hbm, ⟨6, _⟩ => ⟨S6x2048, .i32⟩
  | .hbm, ⟨7, _⟩ => ⟨S30, .i32⟩
  | .hbm, ⟨8, _⟩ => ⟨S1x30x1, .i32⟩
  | .hbm, ⟨9, _⟩ => ⟨S6x1x2048, .i32⟩
  | .hbm, ⟨10, _⟩ => ⟨S6x30x2048, .i32⟩
  | .hbm, ⟨11, _⟩ => ⟨S6x30x2048, .i32⟩
  | .hbm, ⟨12, _⟩ => ⟨S6x30x2048, .i1⟩
  | .hbm, ⟨13, _⟩ => ⟨S6x30x2048, .bf16⟩
  | .hbm, ⟨14, _⟩ => ⟨S_, .i32⟩
  | .hbm, ⟨15, _⟩ => ⟨S2048x2, .i32⟩
  | .hbm, ⟨16, _⟩ => ⟨S2048x2, .i1⟩
  | .hbm, ⟨17, _⟩ => ⟨S_, .i32⟩
  | .hbm, ⟨18, _⟩ => ⟨S2048x2, .i32⟩
  | .hbm, ⟨19, _⟩ => ⟨S2048x2, .i32⟩
  | .hbm, ⟨20, _⟩ => ⟨S2048x2, .i32⟩
  | .hbm, ⟨21, _⟩ => ⟨S2048x2x1, .i32⟩
  | .hbm, ⟨22, _⟩ => ⟨S2048x2, .f32⟩
  | .hbm, ⟨23, _⟩ => ⟨S2x2048, .f32⟩
  | .hbm, ⟨24, _⟩ => ⟨S2x2048, .bf16⟩
  | .hbm, ⟨25, _⟩ => ⟨S2x16384, .f32⟩
  | .hbm, ⟨26, _⟩ => ⟨S16384x2, .f32⟩
  | .local _ .vmem, ⟨0, _⟩ => ⟨S1024x6, .f32⟩
  | .local _ .vmem, ⟨1, _⟩ => ⟨S1024x6, .f32⟩
  | .local _ .vmem, ⟨2, _⟩ => ⟨S6x5, .f32⟩
  | .local _ .vmem, ⟨3, _⟩ => ⟨S6x5, .f32⟩
  | .local _ .vmem, ⟨4, _⟩ => ⟨S6x30x2048, .bf16⟩
  | .local _ .vmem, ⟨5, _⟩ => ⟨S2x2048, .bf16⟩
  | .local _ .vmem, ⟨6, _⟩ => ⟨S2x1024, .f32⟩
  | .local _ .vmem, ⟨7, _⟩ => ⟨S2x1024, .f32⟩
  | _, _ => ⟨S16384x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x30x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S2048x6_S6x2048_1_0 : S2048x6.Transposes [1, 0] S6x2048
  shapeCasts_S30_S1x30x1 : S30.ShapeCasts S1x30x1
  bcast_S6x2048_S6x1x2048_0_2 : S6x2048.BroadcastsInDim S6x1x2048 (![0, 2] : Fin 2 → Fin S6x1x2048.rank)
  bcast_S6x1x2048_S6x30x2048_0_1_2 : S6x1x2048.BroadcastsInDim S6x30x2048 (![0, 1, 2] : Fin 3 → Fin S6x30x2048.rank)
  bcast_S1x30x1_S6x30x2048_0_1_2 : S1x30x1.BroadcastsInDim S6x30x2048 (![0, 1, 2] : Fin 3 → Fin S6x30x2048.rank)
  bcast_S_S2048x2 : S_.BroadcastsInDim S2048x2 (![] : Fin 0 → Fin S2048x2.rank)
  bcast_S2048x2_S2048x2x1_0_1 : S2048x2.BroadcastsInDim S2048x2x1 (![0, 1] : Fin 2 → Fin S2048x2x1.rank)
  transposes_S2048x2_S2x2048_1_0 : S2048x2.Transposes [1, 0] S2x2048
  bitsLt_bf16_f32 : FTy.bits .bf16 < FTy.bits .f32
  inb_S1024x6_S1024x6_0_0 : ∀ a, (![0, 0] : Fin 2 → Nat) a + S1024x6.size a ≤ S1024x6.size a
  h_S1024x6 : 0 < S1024x6.numel
  inb_S6x5_S6x5_0_0 : ∀ a, (![0, 0] : Fin 2 → Nat) a + S6x5.size a ≤ S6x5.size a
  h_S6x5 : 0 < S6x5.numel
  slices_S1024x6_o0_0_S1024x1 : S1024x6.Slices ![0, 0] S1024x1
  slices_S6x5_o0_0_S1x5 : S6x5.Slices ![0, 0] S1x5
  broadcasts_S1024x1_S1024x5 : S1024x1.Broadcasts S1024x5
  broadcasts_S1x5_S1024x5 : S1x5.Broadcasts S1024x5
  slices_S1024x6_o0_1_S1024x1 : S1024x6.Slices ![0, 1] S1024x1
  slices_S6x5_o1_0_S1x5 : S6x5.Slices ![1, 0] S1x5
  slices_S1024x6_o0_2_S1024x1 : S1024x6.Slices ![0, 2] S1024x1
  slices_S6x5_o2_0_S1x5 : S6x5.Slices ![2, 0] S1x5
  slices_S1024x6_o0_3_S1024x1 : S1024x6.Slices ![0, 3] S1024x1
  slices_S6x5_o3_0_S1x5 : S6x5.Slices ![3, 0] S1x5
  slices_S1024x6_o0_4_S1024x1 : S1024x6.Slices ![0, 4] S1024x1
  slices_S6x5_o4_0_S1x5 : S6x5.Slices ![4, 0] S1x5
  slices_S1024x6_o0_5_S1024x1 : S1024x6.Slices ![0, 5] S1024x1
  slices_S6x5_o5_0_S1x5 : S6x5.Slices ![5, 0] S1x5
  concatenates_S1024x5_S1024x5_S1024x5_S1024x5_S1024x5_S1024x5_S1024x30_d1 : Shape.Concatenates [S1024x5, S1024x5, S1024x5, S1024x5, S1024x5, S1024x5] S1024x30 1
  inb_S6x30x2048_S1x30x2048_0_0_0 : ∀ a, (![0, 0, 0] : Fin 3 → Nat) a + S1x30x2048.size a ≤ S6x30x2048.size a
  h_S1x30x2048 : 0 < S1x30x2048.numel
  shapeCasts_S1x30x2048_S30x2048 : S1x30x2048.ShapeCasts S30x2048
  inb_S6x30x2048_S1x30x2048_1_0_0 : ∀ a, (![1, 0, 0] : Fin 3 → Nat) a + S1x30x2048.size a ≤ S6x30x2048.size a
  inb_S6x30x2048_S1x30x2048_2_0_0 : ∀ a, (![2, 0, 0] : Fin 3 → Nat) a + S1x30x2048.size a ≤ S6x30x2048.size a
  inb_S6x30x2048_S1x30x2048_3_0_0 : ∀ a, (![3, 0, 0] : Fin 3 → Nat) a + S1x30x2048.size a ≤ S6x30x2048.size a
  inb_S6x30x2048_S1x30x2048_4_0_0 : ∀ a, (![4, 0, 0] : Fin 3 → Nat) a + S1x30x2048.size a ≤ S6x30x2048.size a
  inb_S6x30x2048_S1x30x2048_5_0_0 : ∀ a, (![5, 0, 0] : Fin 3 → Nat) a + S1x30x2048.size a ≤ S6x30x2048.size a
  reduces_S1024x2048_S1024 : S1024x2048.Reduces [1] S1024
  shapeCasts_S1024_S1024x1 : S1024.ShapeCasts S1024x1
  broadcasts_S1024x1_S1024x2048 : S1024x1.Broadcasts S1024x2048
  inb_S2x2048_S2x2048_0_0 : ∀ a, (![0, 0] : Fin 2 → Nat) a + S2x2048.size a ≤ S2x2048.size a
  h_S2x2048 : 0 < S2x2048.numel
  shapeCasts_S2x2048_S2x2048 : S2x2048.ShapeCasts S2x2048
  slices_S2x1024_o0_0_S1x1024 : S2x1024.Slices ![0, 0] S1x1024
  slices_S2x1024_o1_0_S1x1024 : S2x1024.Slices ![1, 0] S1x1024
  concatenates_S1x1024_S1x1024_S2x1024_d0 : Shape.Concatenates [S1x1024, S1x1024] S2x1024 0
  inb_S2x1024_S2x1024_0_0 : ∀ a, (![0, 0] : Fin 2 → Nat) a + S2x1024.size a ≤ S2x1024.size a
  h_S2x1024 : 0 < S2x1024.numel
  transposes_S2x16384_S16384x2_1_0 : S2x16384.Transposes [1, 0] S16384x2
  gather_S12_S2048x2x1_S2048x2_n_0_n_n_0_2_1_wf : GatherDims.WF S12 S2048x2x1 S2048x2 [] [0] [] [0] [] 2 ![1]
  dot_S1024x30_S30x2048_S1024x2048_1_0_0_1_n_n_wf : DotDims.WF S1024x30 S30x2048 S1024x2048 [1] [0] [0] [1] [] []
  dot_S2x2048_S1024x2048_S2x1024_1_1_0_0_n_n_wf : DotDims.WF S2x2048 S1024x2048 S2x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x6.size a ≤ S16384x6.size a
  hwx0_0 : ∀ i : grid0.Coords, EltTy.bits .f32 = 32 ∨ (Rect.block (s := S16384x6) S1024x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x5.size a ≤ S6x5.size a
  hwx0_1 : ∀ i : grid0.Coords, EltTy.bits .f32 = 32 ∨ (Rect.block (s := S6x5) S6x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x5.size a ≤ S6x5.size a
  hwx0_2 : ∀ i : grid0.Coords, EltTy.bits .f32 = 32 ∨ (Rect.block (s := S6x5) S6x5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6x30x2048.size a ≤ S6x30x2048.size a
  hwx0_3 : ∀ i : grid0.Coords, EltTy.bits .bf16 = 32 ∨ (Rect.block (s := S6x30x2048) S6x30x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x2048.size a ≤ S2x2048.size a
  hwx0_4 : ∀ i : grid0.Coords, EltTy.bits .bf16 = 32 ∨ (Rect.block (s := S2x2048) S2x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x1024.size a ≤ S2x16384.size a
  hwx0_5 : ∀ i : grid0.Coords, EltTy.bits .f32 = 32 ∨ (Rect.block (s := S2x16384) S2x1024.size (cc0_transform_5 i) (hinb0_5 i)).WholeWords (EltTy.packing .f32)

variable [Facts₀]

def gather_S12_S2048x2x1_S2048x2_n_0_n_n_0_2_1 : GatherDims S12 S2048x2x1 S2048x2 where
  offsetDims := []
  collapsedSliceDims := [0]
  operandBatchingDims := []
  startIndicesBatchingDims := []
  startIndexMap := [0]
  indexVectorDim := 2
  sliceSizes := ![1]
  wf := gather_S12_S2048x2x1_S2048x2_n_0_n_n_0_2_1_wf
def dot_S1024x30_S30x2048_S1024x2048_1_0_0_1_n_n : DotDims S1024x30 S30x2048 S1024x2048 where
  lhsContracting := [1]
  rhsContracting := [0]
  lhsNonContracting := [0]
  rhsNonContracting := [1]
  lhsBatch := []
  rhsBatch := []
  wf := dot_S1024x30_S30x2048_S1024x2048_1_0_0_1_n_n_wf
def dot_S2x2048_S1024x2048_S2x1024_1_1_0_0_n_n : DotDims S2x2048 S1024x2048 S2x1024 where
  lhsContracting := [1]
  rhsContracting := [1]
  lhsNonContracting := [0]
  rhsNonContracting := [0]
  lhsBatch := []
  rhsBatch := []
  wf := dot_S2x2048_S1024x2048_S2x1024_1_1_0_0_n_n_wf

abbrev win0_0 : Pipeline.Window sig grid0 :=
  Pipeline.Window.ofSpec (Memref.whole main_arg0) S1024x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6x5.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S6x30x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S2x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S2x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x6 : Shape := ⟨2, ![16384, 6]⟩
abbrev S6x5 : Shape := ⟨2, ![6, 5]⟩
abbrev S12 : Shape := ⟨1, ![12]⟩
abbrev S2048x6 : Shape := ⟨2, ![2048, 6]⟩
abbrev S2048x2 : Shape := ⟨2, ![2048, 2]⟩
abbrev S2 : Shape := ⟨1, ![2]⟩
abbrev S16384x6x1 : Shape := ⟨3, ![16384, 6, 1]⟩
abbrev S1x6x5 : Shape := ⟨3, ![1, 6, 5]⟩
abbrev S16384x6x5 : Shape := ⟨3, ![16384, 6, 5]⟩
abbrev S16384x30 : Shape := ⟨2, ![16384, 30]⟩
abbrev S_ : Shape := ⟨0, ![]⟩
abbrev S2048x6x1 : Shape := ⟨3, ![2048, 6, 1]⟩
abbrev S16384x2048x6 : Shape := ⟨3, ![16384, 2048, 6]⟩
abbrev S16384x2048 : Shape := ⟨2, ![16384, 2048]⟩
abbrev S16384 : Shape := ⟨1, ![16384]⟩
abbrev S16384x1 : Shape := ⟨2, ![16384, 1]⟩
abbrev S2048x2x1 : Shape := ⟨3, ![2048, 2, 1]⟩
abbrev S16384x2 : Shape := ⟨2, ![16384, 2]⟩
abbrev S1x2 : Shape := ⟨2, ![1, 2]⟩

abbrev nBuf : Space → Nat
  | .hbm => 57
  | .vmem => 0
  | .smem => 0
  | _ => 0

abbrev bufTy : (tb : Table) → Fin (tcTables nBuf tb) → BufTy
  | .hbm, ⟨0, _⟩ => ⟨S16384x6, .f32⟩
  | .hbm, ⟨1, _⟩ => ⟨S6x5, .f32⟩
  | .hbm, ⟨2, _⟩ => ⟨S6x5, .f32⟩
  | .hbm, ⟨3, _⟩ => ⟨S12, .f32⟩
  | .hbm, ⟨4, _⟩ => ⟨S2048x6, .i32⟩
  | .hbm, ⟨5, _⟩ => ⟨S2048x2, .i32⟩
  | .hbm, ⟨6, _⟩ => ⟨S2, .f32⟩
  | .hbm, ⟨7, _⟩ => ⟨S2, .f32⟩
  | .hbm, ⟨8, _⟩ => ⟨S16384x6x1, .f32⟩
  | .hbm, ⟨9, _⟩ => ⟨S1x6x5, .f32⟩
  | .hbm, ⟨10, _⟩ => ⟨S16384x6x5, .f32⟩
  | .hbm, ⟨11, _⟩ => ⟨S16384x6x5, .f32⟩
  | .hbm, ⟨12, _⟩ => ⟨S16384x6x5, .f32⟩
  | .hbm, ⟨13, _⟩ => ⟨S1x6x5, .f32⟩
  | .hbm, ⟨14, _⟩ => ⟨S16384x6x5, .f32⟩
  | .hbm, ⟨15, _⟩ => ⟨S16384x6x5, .f32⟩
  | .hbm, ⟨16, _⟩ => ⟨S16384x6x5, .f32⟩
  | .hbm, ⟨17, _⟩ => ⟨S16384x6x5, .f32⟩
  | .hbm, ⟨18, _⟩ => ⟨S16384x6x5, .f32⟩
  | .hbm, ⟨19, _⟩ => ⟨S16384x30, .f32⟩
  | .hbm, ⟨20, _⟩ => ⟨S_, .i32⟩
  | .hbm, ⟨21, _⟩ => ⟨S2048x6, .i32⟩
  | .hbm, ⟨22, _⟩ => ⟨S2048x6, .i1⟩
  | .hbm, ⟨23, _⟩ => ⟨S_, .i32⟩
  | .hbm, ⟨24, _⟩ => ⟨S2048x6, .i32⟩
  | .hbm, ⟨25, _⟩ => ⟨S2048x6, .i32⟩
  | .hbm, ⟨26, _⟩ => ⟨S2048x6, .i32⟩
  | .hbm, ⟨27, _⟩ => ⟨S2048x6x1, .i32⟩
  | .hbm, ⟨28, _⟩ => ⟨S16384x2048x6, .f32⟩
  | .hbm, ⟨29, _⟩ => ⟨S_, .f32⟩
  | .hbm, ⟨30, _⟩ => ⟨S16384x2048, .f32⟩
  | .hbm, ⟨31, _⟩ => ⟨S16384x2048, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x2048, .f32⟩
  | .hbm, ⟨39, _⟩ => ⟨S16384x2048, .f32⟩
  | .hbm, ⟨40, _⟩ => ⟨S_, .i32⟩
  | .hbm, ⟨41, _⟩ => ⟨S2048x2, .i32⟩
  | .hbm, ⟨42, _⟩ => ⟨S2048x2, .i1⟩
  | .hbm, ⟨43, _⟩ => ⟨S_, .i32⟩
  | .hbm, ⟨44, _⟩ => ⟨S2048x2, .i32⟩
  | .hbm, ⟨45, _⟩ => ⟨S2048x2, .i32⟩
  | .hbm, ⟨46, _⟩ => ⟨S2048x2, .i32⟩
  | .hbm, ⟨47, _⟩ => ⟨S2048x2x1, .i32⟩
  | .hbm, ⟨48, _⟩ => ⟨S2048x2, .f32⟩
  | .hbm, ⟨49, _⟩ => ⟨S16384x2, .f32⟩
  | .hbm, ⟨50, _⟩ => ⟨S16384x2, .f32⟩
  | .hbm, ⟨51, _⟩ => ⟨S1x2, .f32⟩
  | .hbm, ⟨52, _⟩ => ⟨S16384x2, .f32⟩
  | .hbm, ⟨53, _⟩ => ⟨S16384x2, .f32⟩
  | .hbm, ⟨54, _⟩ => ⟨S1x2, .f32⟩
  | .hbm, ⟨55, _⟩ => ⟨S16384x2, .f32⟩
  | .hbm, ⟨56, _⟩ => ⟨S16384x2, .f32⟩
  | _, _ => ⟨S16384x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]

class Facts₀ : Prop where
  bcast_S16384x6_S16384x6x1_0_1 : S16384x6.BroadcastsInDim S16384x6x1 (![0, 1] : Fin 2 → Fin S16384x6x1.rank)
  bcast_S6x5_S1x6x5_1_2 : S6x5.BroadcastsInDim S1x6x5 (![1, 2] : Fin 2 → Fin S1x6x5.rank)
  bcast_S16384x6x1_S16384x6x5_0_1_2 : S16384x6x1.BroadcastsInDim S16384x6x5 (![0, 1, 2] : Fin 3 → Fin S16384x6x5.rank)
  bcast_S1x6x5_S16384x6x5_0_1_2 : S1x6x5.BroadcastsInDim S16384x6x5 (![0, 1, 2] : Fin 3 → Fin S16384x6x5.rank)
  shapeCasts_S16384x6x5_S16384x30 : S16384x6x5.ShapeCasts S16384x30
  bcast_S_S2048x6 : S_.BroadcastsInDim S2048x6 (![] : Fin 0 → Fin S2048x6.rank)
  bcast_S2048x6_S2048x6x1_0_1 : S2048x6.BroadcastsInDim S2048x6x1 (![0, 1] : Fin 2 → Fin S2048x6x1.rank)
  reducesTo_S16384x2048x6_S16384x2048_d2 : S16384x2048x6.ReducesTo [2] S16384x2048
  h_S_ : 0 < S_.numel
  reducesTo_S16384x2048_S16384_d1 : S16384x2048.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x2048_0_1 : S16384x1.BroadcastsInDim S16384x2048 (![0, 1] : Fin 2 → Fin S16384x2048.rank)
  bcast_S_S2048x2 : S_.BroadcastsInDim S2048x2 (![] : Fin 0 → Fin S2048x2.rank)
  bcast_S2048x2_S2048x2x1_0_1 : S2048x2.BroadcastsInDim S2048x2x1 (![0, 1] : Fin 2 → Fin S2048x2x1.rank)
  bcast_S2_S1x2_1 : S2.BroadcastsInDim S1x2 (![1] : Fin 1 → Fin S1x2.rank)
  bcast_S1x2_S16384x2_0_1 : S1x2.BroadcastsInDim S16384x2 (![0, 1] : Fin 2 → Fin S16384x2.rank)
  gather_S16384x30_S2048x6x1_S16384x2048x6_0_1_n_n_1_2_163841_wf : GatherDims.WF S16384x30 S2048x6x1 S16384x2048x6 [0] [1] [] [1] [] 2 ![16384, 1]
  gather_S12_S2048x2x1_S2048x2_n_0_n_n_0_2_1_wf : GatherDims.WF S12 S2048x2x1 S2048x2 [] [0] [] [0] [] 2 ![1]
  dot_S16384x2048_S2048x2_S16384x2_1_0_0_1_n_n_wf : DotDims.WF S16384x2048 S2048x2 S16384x2 [1] [0] [0] [1] [] []

variable [Facts₀]

def gather_S16384x30_S2048x6x1_S16384x2048x6_0_1_n_n_1_2_163841 : GatherDims S16384x30 S2048x6x1 S16384x2048x6 where
  offsetDims := [0]
  collapsedSliceDims := [1]
  operandBatchingDims := []
  startIndicesBatchingDims := []
  startIndexMap := [1]
  indexVectorDim := 2
  sliceSizes := ![16384, 1]
  wf := gather_S16384x30_S2048x6x1_S16384x2048x6_0_1_n_n_1_2_163841_wf
def gather_S12_S2048x2x1_S2048x2_n_0_n_n_0_2_1 : GatherDims S12 S2048x2x1 S2048x2 where
  offsetDims := []
  collapsedSliceDims := [0]
  operandBatchingDims := []
  startIndicesBatchingDims := []
  startIndexMap := [0]
  indexVectorDim := 2
  sliceSizes := ![1]
  wf := gather_S12_S2048x2x1_S2048x2_n_0_n_n_0_2_1_wf
def dot_S16384x2048_S2048x2_S16384x2_1_0_0_1_n_n : DotDims S16384x2048 S2048x2 S16384x2 where
  lhsContracting := [1]
  rhsContracting := [0]
  lhsNonContracting := [0]
  rhsNonContracting := [1]
  lhsBatch := []
  rhsBatch := []
  wf := dot_S16384x2048_S2048x2_S16384x2_1_0_0_1_n_n_wf

class Facts : Prop extends Facts₀ where

variable [Facts]
-- ==== Proof.Spec.lean ====
/-
  The fuzzy-rule network both programs compute, one sample at a time, on the extended reals.

  A sample has six inputs `xr 0 … xr 5`; input `v` has five Gaussian fuzzy sets with centres `cen v j` and widths
  `wid v j`. The membership of input `v` in its set `j` is exp(-z²) with z = (xr v - cen v j) / wid v j. The thirty
  memberships of a sample are laid flat, entry `k` being input `k / 5`, set `k % 5`. Rule `r` (of 2048) names six flat
  entries, `ir r 0 … ir r 5`, and fires with the least of those six memberships. The firing strengths of a sample are
  divided by their L¹ norm (or by a small constant, if the norm is smaller), each rule's share is weighted with the
  rule's two output centres `ow r o`, the shares are summed, and the two sums squashed by tanh, scaled and shifted.
  Nothing in a sample's result depends on another sample: a block of samples is computed as the whole batch is.
-/
import Idealize.ShloMosaic.PureOps.Ideal
import Idealize.ShloMosaic.Lib.ValueIdx

noncomputable section

namespace Fuzzy

open Idealize.ShloMosaic Idealize.ShloMosaic.ValueIdx

abbrev SMF : Shape := ⟨2, ![6, 5]⟩
abbrev SIR : Shape := ⟨2, ![2048, 6]⟩
abbrev SOW : Shape := ⟨2, ![2048, 2]⟩

variable (xr : Fin 6 → EReal) (cen wid : SMF.Idx → EReal) (ir : SIR.Idx → BitVec 32) (ow : SOW.Idx → EReal)

/-- The distance of input `v` from the centre of its set `j`, in widths. -/
def zscore (v : Fin 6) (j : Fin 5) : EReal :=
  Ideal.div (xr v - cen (ix2 v j)) (wid (ix2 v j))

/-- The Gaussian membership exp(-z²), written as the programs write it: exp((-z)·z). -/
def memb (v : Fin 6) (j : Fin 5) : EReal :=
  Ideal.exp (-(zscore xr cen wid v j) * zscore xr cen wid v j)

/-- The memberships of a sample laid flat: entry `k` is input `k / 5`, set `k % 5`; zero past the thirty entries. -/
def membFlat (k : ℕ) : EReal :=
  if h : k < 30 then memb xr cen wid ⟨k / 5, by omega⟩ ⟨k % 5, by omega⟩ else 0

/-- The flat entry rule `r` names as its antecedent `i`. -/
def ante (r : Fin 2048) (i : Fin 6) : ℕ := (ir (ix2 r i)).toNat

/-- Rule `r`'s firing strength: the least of its six antecedents' memberships. -/
def strength (r : Fin 2048) : EReal :=
  min (min (min (min (min (membFlat xr cen wid (ante ir r 0)) (membFlat xr cen wid (ante ir r 1)))
    (membFlat xr cen wid (ante ir r 2))) (membFlat xr cen wid (ante ir r 3)))
    (membFlat xr cen wid (ante ir r 4))) (membFlat xr cen wid (ante ir r 5))

/-- The L¹ norm of the firing strengths (|s| is max s (-s) on the extended reals). -/
def l1 : EReal :=
  ∑ r : Fin 2048, max (strength xr cen wid ir r) (-(strength xr cen wid ir r))

/-- The floor under the norm: the float nearest 10⁻¹², as both programs carry it. -/
def floorLit : EReal := Ideal.ofBits .f32 0x2B8CBCCC#32

/-- Rule `r`'s share of the sample's total firing. -/
def share (r : Fin 2048) : EReal :=
  Ideal.div (strength xr cen wid ir r) (max (l1 xr cen wid ir) floorLit)

/-- Output `o` before squashing: the rules' shares weighted by their output centres. -/
def crisp (o : Fin 2) : EReal :=
  ∑ r : Fin 2048, share xr cen wid ir r * ow (ix2 r o)

/-- The scale of output `o`: 4 and 0.75, as float words. -/
def scaleWord (o : Fin 2) : BitVec 32 := if o.val = 0 then 0x40800000#32 else 0x3F400000#32
/-- The shift of output `o`: 0 and 0.75, as float words. -/
def shiftWord (o : Fin 2) : BitVec 32 := if o.val = 0 then 0x00000000#32 else 0x3F400000#32

/-- Output `o` of the sample. -/
def outAt (o : Fin 2) : EReal :=
  Ideal.tanh (crisp xr cen wid ir ow o) * Ideal.ofBits .f32 (scaleWord o) + Ideal.ofBits .f32 (shiftWord o)

/-- The result array of a batch of `B` samples `x`: row `b` is sample `b`'s two outputs. -/
def result {B : ℕ} (x : (⟨2, ![B, 6]⟩ : Shape).Idx → EReal) : (⟨2, ![B, 2]⟩ : Shape).Idx → EReal :=
  fun j => outAt (fun v => x (ix2 ⟨(j 0).val, idx2_lt0 j⟩ v)) cen wid ir ow ⟨(j 1).val, idx2_lt1 j⟩

theorem result_ix2 {B : ℕ} (x : (⟨2, ![B, 6]⟩ : Shape).Idx → EReal) (b : Fin B) (o : Fin 2) :
    result cen wid ir ow x (ix2 b o) = outAt (fun v => x (ix2 b v)) cen wid ir ow o := rfl

end Fuzzy

end
-- ==== Proof.PreRange.lean ====
/-
  What the precondition says of the rules' antecedent indices: each lies in [0, 30).
-/
import proofs.«413456_j44873818308905_2_alg».proof.Pre_finite_inputs
import proofs.«413456_j44873818308905_2_alg».proof.Proof.Gen.Pre_finite_inputs
import Idealize.ShloMosaic.Lib.ValueIdx
import Idealize.ShloMosaic.Lib.ReduceAll
import Idealize.ShloMosaic.Lib.StableHlo.Predicate

noncomputable section

namespace Cert.Pre_finite_inputs.Hand

open Idealize.ShloMosaic Idealize.ShloMosaic.ValueIdx Cert.Pre_finite_inputs

variable {F : FTy → Type} [FloatOps F]

/-- A 32-bit word that is at least 0 and less than 30 read signed is less than 30 read unsigned. -/
theorem toNat_lt_of_signed (w : BitVec 32) (h0 : IntOp.cmpi .sge w 0#32 = 1#1) (h30 : IntOp.cmpi .slt w 30#32 = 1#1) :
    w.toNat < 30 := by
  rw [IntOp.cmpi_sge] at h0
  rw [IntOp.cmpi_slt] at h30
  have e0 : (0#32 : BitVec 32).toInt = 0 := by decide
  have e30 : (30#32 : BitVec 32).toInt = 30 := by decide
  rw [e0] at h0
  rw [e30] at h30
  have hlt : 2 * w.toNat < 2 ^ 32 := BitVec.toInt_pos_iff.1 h0
  rw [BitVec.toInt_eq_toNat_of_lt hlt] at h30
  omega

/-- Where the printed precondition is all ones, every antecedent index, read unsigned, is below 30: the last conjunct
    says each is at least 0 and less than 30 as a signed word. -/
theorem range_of_pre (a0 : FVec F S16384x6 .f32) (a1 a2 : FVec F S6x5 .f32) (a3 : FVec F S12 .f32) (a4 : IVec S2048x6 32)
    (a5 : IVec S2048x2 32) (h : Cert.Pre_finite_inputs.fn (F := F) a0 a1 a2 a3 a4 a5 = fun _ => 1#1) :
    ∀ (r : Fin 2048) (i : Fin 6), (a4 (ix2 r i)).toNat < 30 := by
  intro r i
  have h0 := congrFun h ValueIdx.ix0
  dsimp only [fn, fn_part1] at h0
  -- the outer conjunction: its last member is the test of the antecedent indices
  obtain ⟨-, h24⟩ := IntOp.andi_eq_one.1 h0
  -- a conjunction over all entries that is one had a one at every entry
  haveI : Subsingleton S_.Idx := ⟨fun _ _ => funext fun d => d.elim0⟩
  have h23 := Host.reduce_andi_all _ _ _ _ _ h24 (ix2 r i)
  obtain ⟨h20, h22⟩ := IntOp.andi_eq_one.1 h23
  exact toNat_lt_of_signed _ h20 h22

end Cert.Pre_finite_inputs.Hand

end
-- ==== Proof.KerHost.lean ====
import proofs.«413456_j44873818308905_2_alg».proof.Proof.Gen.KernelIdeal.Frame
import proofs.«413456_j44873818308905_2_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable {F : FTy → Type} [FloatOps F]
variable (m : (ℓ : Loc nD τ sig) → Buf (Elt F) ℓ) (ρ : Dev nD → PrngReg)

/-- The one-hot table of the rules' antecedents, as the host lines before the region build it. -/
def hotTable (a4 : IVec S2048x6 32) : FVec F S6x30x2048 .bf16 :=
  let v0 : IVec S6x2048 32 := transpose S6x2048 [1, 0] a4 Facts₀.transposes_S2048x6_S6x2048_1_0
  let v1 : IVec S30 32 := iotaInDim S30 32 0
  let v2 : IVec S1x30x1 32 := shapeCast S1x30x1 v1 Facts₀.shapeCasts_S30_S1x30x1
  let v3 : IVec S6x1x2048 32 := broadcastInDim S6x1x2048 ![0, 2] Facts₀.bcast_S6x2048_S6x1x2048_0_2 v0
  let v4 : IVec S6x30x2048 32 := broadcastInDim S6x30x2048 ![0, 1, 2] Facts₀.bcast_S6x1x2048_S6x30x2048_0_1_2 v3
  let v5 : IVec S6x30x2048 32 := broadcastInDim S6x30x2048 ![0, 1, 2] Facts₀.bcast_S1x30x1_S6x30x2048_0_1_2 v2
  let v6 : IVec S6x30x2048 1 := cmpi .eq v4 v5
  uitofp .bf16 v6

/-- The rules' output centres, as the host lines before the region gather them. -/
def kerOw (a3 : FVec F S12 .f32) (a5 : IVec S2048x2 32) : FVec F S2048x2 .f32 :=
  let c : IVec S_ 32 := constantI S_ 32 0#32
  let v8 : IVec S2048x2 32 := broadcastInDim S2048x2 ![] Facts₀.bcast_S_S2048x2 c
  let v9 : IVec S2048x2 1 := cmpi .slt a5 v8
  let c_0 : IVec S_ 32 := constantI S_ 32 12#32
  let v10 : IVec S2048x2 32 := broadcastInDim S2048x2 ![] Facts₀.bcast_S_S2048x2 c_0
  let v11 : IVec S2048x2 32 := addi a5 v10
  let v12 : IVec S2048x2 32 := select v9 v11 a5
  let v13 : IVec S2048x2x1 32 := broadcastInDim S2048x2x1 ![0, 1] Facts₀.bcast_S2048x2_S2048x2x1_0_1 v12
  Host.gather gather_S12_S2048x2x1_S2048x2_n_0_n_n_0_2_1 a3 v13

/-- The table of output centres transposed, as the region's fifth operand holds it. -/
def owT (a3 : FVec F S12 .f32) (a5 : IVec S2048x2 32) : FVec F S2x2048 .bf16 :=
  truncf .bf16 (transpose S2x2048 [1, 0] (kerOw a3 a5) Facts₀.transposes_S2048x2_S2x2048_1_0) Facts₀.bitsLt_bf16_f32

theorem V_hot (c : Dev nD) : (V m c main_v7 : FVec F S6x30x2048 .bf16) = hotTable (m ((c : Thread nD τ).loc main_arg4)) := by
  show StableHlo.after hostOps0 (fun b => m (c, b)) (Proc.devRef .tc main_v7) = _
  after_results
  rfl

theorem V_owT (c : Dev nD) : (V m c main_v16 : FVec F S2x2048 .bf16) = owT (m ((c : Thread nD τ).loc main_arg3)) (m ((c : Thread nD τ).loc main_arg5)) := by
  show StableHlo.after hostOps0 (fun b => m (c, b)) (Proc.devRef .tc main_v16) = _
  after_results
  rfl

/-- Entry (i, k, r) of the one-hot table is one where rule `r`'s antecedent `i` names flat entry `k`, zero elsewhere. -/
theorem hotTable_apply (a4 : IVec S2048x6 32) (i : Fin 6) (k : Fin 30) (r : Fin 2048) :
    hotTable (F := Ideal) a4 (ix3 i k r) = if (a4 (ix2 r i)).toNat = k.val then (1 : EReal) else 0 := by
  have e4 : broadcastInDim S6x30x2048 ![0, 1, 2] Facts₀.bcast_S6x1x2048_S6x30x2048_0_1_2
      (broadcastInDim S6x1x2048 ![0, 2] Facts₀.bcast_S6x2048_S6x1x2048_0_2
        (transpose S6x2048 [1, 0] a4 Facts₀.transposes_S2048x6_S6x2048_1_0)) (ix3 i k r) = a4 (ix2 r i) := by
    rw [broadcastInDim_apply _ _ _ _ (ix3 i (0 : Fin 1) r) (fun a => match a with | ⟨0, _⟩ => rfl | ⟨1, _⟩ => rfl | ⟨2, _⟩ => rfl),
      broadcastInDim_apply _ _ _ _ (ix2 i r) (fun a => match a with | ⟨0, _⟩ => rfl | ⟨1, _⟩ => rfl),
      transpose_ix2_apply]
  have e5 : broadcastInDim S6x30x2048 ![0, 1, 2] Facts₀.bcast_S1x30x1_S6x30x2048_0_1_2
      (shapeCast S1x30x1 (iotaInDim S30 32 0) Facts₀.shapeCasts_S30_S1x30x1) (ix3 i k r) = BitVec.ofNat 32 k.val := by
    rw [broadcastInDim_apply _ _ _ _ (ix3 (0 : Fin 1) k (0 : Fin 1)) (fun a => match a with | ⟨0, _⟩ => rfl | ⟨1, _⟩ => rfl | ⟨2, _⟩ => rfl),
      shapeCast_apply _ _ _ (ix1 k) (by simp [Shape.rowMajor_val_one, Shape.rowMajor_val_three]), iotaInDim_apply]
  show FloatOps.uitofp (F := Ideal) .bf16 (IntOp.cmpi .eq _ _) = _
  rw [e4, e5]
  have hk : k.val < 30 := k.isLt
  by_cases h : (a4 (ix2 r i)).toNat = k.val
  · have hw : IntOp.cmpi .eq (a4 (ix2 r i)) (BitVec.ofNat 32 k.val) = 1#1 :=
      IntOp.cmpi_eq.2 (BitVec.eq_of_toNat_eq (by rw [h, BitVec.toNat_ofNat]; omega))
    rw [if_pos h, hw]
    show (((1#1 : BitVec 1).toNat : ℝ) : EReal) = 1
    norm_num
  · have hw : IntOp.cmpi .eq (a4 (ix2 r i)) (BitVec.ofNat 32 k.val) = 0#1 :=
      eq_zero_of_ne_one fun h1 => h (by rw [IntOp.cmpi_eq.1 h1, BitVec.toNat_ofNat]; omega)
    rw [if_neg h, hw]
    show (((0#1 : BitVec 1).toNat : ℝ) : EReal) = 0
    norm_num

/-- The transposed table of output centres at (o, r) is the table at (r, o). -/
theorem owT_apply (a3 : FVec Ideal S12 .f32) (a5 : IVec S2048x2 32) (o : Fin 2) (r : Fin 2048) :
    owT (F := Ideal) a3 a5 (ix2 o r) = kerOw a3 a5 (ix2 r o) := by
  unfold owT
  rw [truncf_apply, transpose_ix2_apply]

end Cert.KernelIdeal.Hand

end
-- ==== Proof.KerBody.lean ====
/-
  One block of the kernel's result read at an index: entry (o, p) of the block the body leaves is output `o` of the
  block's sample `p`, as the fuzzy-rule network computes it from the sample's six inputs.
-/
import proofs.«413456_j44873818308905_2_alg».proof.Proof.Gen.KernelIdeal.Frame
import proofs.«413456_j44873818308905_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen

/-! ## Layout steps at coordinates -/

/-- One column broadcast over many: a `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector made a column: an `[a]` array cast to `[a, 1]` reads, at `(p, u)`, the operand at `p`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- Table `i` of the stack of six, loaded whole: entry `(0, k, r)` of the load is entry `(i, k, r)` of the stack. -/
theorem ld_table (x3 : Vec Ideal S6x30x2048 .bf16) (i : ℕ) (hi : i < 6)
    (inb : ∀ a, (![i, 0, 0] : Fin 3 → Nat) a + S1x30x2048.size a ≤ S6x30x2048.size a) (u : Fin 1) (k : Fin 30) (r : Fin 2048) :
    View.ld x3 (Rect.unit (s := S6x30x2048) ![i, 0, 0] S1x30x2048.size inb) (ix3 u k r) = x3 (ix3 ⟨i, hi⟩ k r) := by
  show x3 _ = x3 _
  congr 1
  funext ax
  apply Fin.ext
  have hu : u.val = 0 := by omega
  match ax with
  | ⟨0, _⟩ => show i + 1 * u.val = i; omega
  | ⟨1, _⟩ => show 0 + 1 * k.val = k.val; omega
  | ⟨2, _⟩ => show 0 + 1 * r.val = r.val; omega

/-! ## The memberships -/

/-- The distances of input `o` of every sample from its five centres, in widths, as the body writes them: column `o` of the
    samples against row `o` of the centres, over row `o` of the widths. -/
def zVec (x0 : FVec Ideal S1024x6 .f32) (x1 x2 : FVec Ideal S6x5 .f32) (o : ℕ)
    (h0 : S1024x6.Slices ![0, o] S1024x1) (h1 : S6x5.Slices ![o, 0] S1x5) : FVec Ideal S1024x5 .f32 :=
  divf (subf (broadcastTo S1024x5 (extractStridedSlice S1024x1 ![0, o] x0 h0) broadcasts_S1024x1_S1024x5)
      (broadcastTo S1024x5 (extractStridedSlice S1x5 ![o, 0] x1 h1) broadcasts_S1x5_S1024x5))
    (broadcastTo S1024x5 (extractStridedSlice S1x5 ![o, 0] x2 h1) broadcasts_S1x5_S1024x5)

/-- Entry `(p, j)` of them is the z-score of sample `p`'s input `o` against set `j`. -/
theorem zVec_apply (x0 : FVec Ideal S1024x6 .f32) (x1 x2 : FVec Ideal S6x5 .f32) (o : ℕ) (ho : o < 6)
    (h0 : S1024x6.Slices ![0, o] S1024x1) (h1 : S6x5.Slices ![o, 0] S1x5) (p : Fin 1024) (j : Fin 5) :
    zVec x0 x1 x2 o h0 h1 (ix2 p j) = Fuzzy.zscore (fun v => x0 (ix2 p v)) x1 x2 ⟨o, ho⟩ j := by
  unfold zVec Fuzzy.zscore
  rw [divf_apply, subf_apply, broadcastTo_a1_ab_apply, broadcastTo_1b_ab_apply, broadcastTo_1b_ab_apply,
    slice2_axis1_apply o x0 h0 p (0 : Fin 1) ⟨o, ho⟩ rfl, slice2_axis0_apply o x1 h1 (0 : Fin 1) j ⟨o, ho⟩ rfl,
    slice2_axis0_apply o x2 h1 (0 : Fin 1) j ⟨o, ho⟩ rfl]

/-- The Gaussian memberships of input `o` of every sample in its five sets, as the body writes them: exp((0 - z)·z). -/
def membVec (x0 : FVec Ideal S1024x6 .f32) (x1 x2 : FVec Ideal S6x5 .f32) (o : ℕ)
    (h0 : S1024x6.Slices ![0, o] S1024x1) (h1 : S6x5.Slices ![o, 0] S1x5) : FVec Ideal S1024x5 .f32 :=
  exp (mulf (subf (broadcast S1024x5 (Scalar.ofBits .f32 0x00000000#32)) (zVec x0 x1 x2 o h0 h1)) (zVec x0 x1 x2 o h0 h1))

/-- Entry `(p, j)` of them is the membership of sample `p`'s input `o` in set `j`: the zero word is 0 and 0 - z = -z. -/
theorem membVec_apply (x0 : FVec Ideal S1024x6 .f32) (x1 x2 : FVec Ideal S6x5 .f32) (o : ℕ) (ho : o < 6)
    (h0 : S1024x6.Slices ![0, o] S1024x1) (h1 : S6x5.Slices ![o, 0] S1x5) (p : Fin 1024) (j : Fin 5) :
    membVec x0 x1 x2 o h0 h1 (ix2 p j) = Fuzzy.memb (fun v => x0 (ix2 p v)) x1 x2 ⟨o, ho⟩ j := by
  unfold membVec Fuzzy.memb
  show Ideal.exp ((Ideal.ofBits .f32 0x00000000#32 - zVec x0 x1 x2 o h0 h1 (ix2 p j)) * zVec x0 x1 x2 o h0 h1 (ix2 p j)) = _
  rw [Ideal.ofBits_zero_f32, zero_sub, zVec_apply x0 x1 x2 o ho h0 h1 p j]

/-! ## The product of the memberships with one antecedent table -/

theorem dotA_lhs0 (j : S1024x2048.Idx) (k : dot_S1024x30_S30x2048_S1024x2048_1_0_0_1_n_n.contr.Idx) :
    (dot_S1024x30_S30x2048_S1024x2048_1_0_0_1_n_n.lhsIdx j k 0).val = (j 0).val := by
  simp [DotDims.lhsIdx, dot_S1024x30_S30x2048_S1024x2048_1_0_0_1_n_n]; rfl

theorem dotA_lhs1 (j : S1024x2048.Idx) (k : dot_S1024x30_S30x2048_S1024x2048_1_0_0_1_n_n.contr.Idx) :
    (dot_S1024x30_S30x2048_S1024x2048_1_0_0_1_n_n.lhsIdx j k 1).val = (k ⟨0, by decide⟩).val :=
  DotDims.lhsIdx_val_of_single dot_S1024x30_S30x2048_S1024x2048_1_0_0_1_n_n rfl j k

theorem dotA_rhs0 (j : S1024x2048.Idx) (k : dot_S1024x30_S30x2048_S1024x2048_1_0_0_1_n_n.contr.Idx) :
    (dot_S1024x30_S30x2048_S1024x2048_1_0_0_1_n_n.rhsIdx j k 0).val = (k ⟨0, by decide⟩).val :=
  DotDims.rhsIdx_val_of_single dot_S1024x30_S30x2048_S1024x2048_1_0_0_1_n_n rfl j k

theorem dotA_rhs1 (j : S1024x2048.Idx) (k : dot_S1024x30_S30x2048_S1024x2048_1_0_0_1_n_n.contr.Idx) :
    (dot_S1024x30_S30x2048_S1024x2048_1_0_0_1_n_n.rhsIdx j k 1).val = (j 1).val := by
  simp [DotDims.rhsIdx, dot_S1024x30_S30x2048_S1024x2048_1_0_0_1_n_n]; rfl

/-- The product at sample `p` and rule `r`: the sum over the thirty flat entries of membership times table entry. -/
theorem matmulA_apply (M : FVec Ideal S1024x30 .bf16) (T : FVec Ideal S30x2048 .bf16) (p : Fin 1024) (r : Fin 2048) :
    matmul dot_S1024x30_S30x2048_S1024x2048_1_0_0_1_n_n none M T (constant S1024x2048 .f32 0x00000000#32) (ix2 p r)
      = ∑ k : Fin 30, M (ix2 p k) * T (ix2 k r) := by
  show FloatOps.matmul _ none M T (constant S1024x2048 .f32 0x00000000#32) (ix2 p r) = _
  rw [Ideal.matmul_constant_zero_apply,
    ← Equiv.sum_comp (contrEquiv1 dot_S1024x30_S30x2048_S1024x2048_1_0_0_1_n_n 30 rfl rfl).symm]
  refine Finset.sum_congr rfl fun c _ => ?_
  have c2 := contrEquiv1_symm_val dot_S1024x30_S30x2048_S1024x2048_1_0_0_1_n_n 30 rfl rfl c
  have l2 : dot_S1024x30_S30x2048_S1024x2048_1_0_0_1_n_n.lhsIdx (ix2 p r)
      ((contrEquiv1 dot_S1024x30_S30x2048_S1024x2048_1_0_0_1_n_n 30 rfl rfl).symm c) = ix2 p c := by
    funext ax; apply Fin.ext
    match ax with
    | ⟨0, _⟩ => exact dotA_lhs0 _ _
    | ⟨1, _⟩ => exact (dotA_lhs1 _ _).trans c2
  have r2 : dot_S1024x30_S30x2048_S1024x2048_1_0_0_1_n_n.rhsIdx (ix2 p r)
      ((contrEquiv1 dot_S1024x30_S30x2048_S1024x2048_1_0_0_1_n_n 30 rfl rfl).symm c) = ix2 c r := by
    funext ax; apply Fin.ext
    match ax with
    | ⟨0, _⟩ => exact (dotA_rhs0 _ _).trans c2
    | ⟨1, _⟩ => exact dotA_rhs1 _ _
  rw [l2, r2]

/-- Against a one-hot table — column `r` is 1 at the flat entry `a` and 0 elsewhere, `a` below thirty — the product picks
    the membership the rule names: every other term of the sum is a product with 0. -/
theorem matmulA_onehot (M : FVec Ideal S1024x30 .bf16) (T : FVec Ideal S1x30x2048 .bf16)
    (h : S1x30x2048.ShapeCasts S30x2048) (mf : ℕ → EReal) (a : ℕ) (ha : a < 30) (p : Fin 1024) (r : Fin 2048)
    (hM : ∀ k : Fin 30, M (ix2 p k) = mf k.val)
    (hT : ∀ k : Fin 30, T (ix3 (0 : Fin 1) k r) = if a = k.val then (1 : EReal) else 0) :
    matmul dot_S1024x30_S30x2048_S1024x2048_1_0_0_1_n_n none M (shapeCast S30x2048 T h) (constant S1024x2048 .f32 0x00000000#32) (ix2 p r)
      = mf a := by
  rw [matmulA_apply, Finset.sum_eq_single (⟨a, ha⟩ : Fin 30)]
  · rw [shapeCast_1ab_ab_apply, hT, if_pos rfl, mul_one, hM]
  · intro k _ hk
    rw [shapeCast_1ab_ab_apply, hT, if_neg (fun e => hk (Fin.ext e.symm)), mul_zero]
  · intro hn; exact absurd (Finset.mem_univ _) hn

/-! ## The thirty memberships laid flat -/

/-- The flat memberships, as the body builds them from the samples, the centres and the widths. -/
def flatVec (x0 : Vec Ideal S1024x6 .f32) (x1 x2 : Vec Ideal S6x5 .f32) : FVec Ideal S1024x30 .bf16 :=
  k0_pay7 (F := Ideal) x0 x1 x2 (k0_pay2 x0 x1 x2) (k0_pay3 x0 x1 x2) (k0_pay4 x0 x1 x2) (k0_pay5 x0 x1 x2) (k0_pay6 x0 x1 x2)

theorem flatVec_eq (x0 : Vec Ideal S1024x6 .f32) (x1 x2 : Vec Ideal S6x5 .f32) :
    flatVec x0 x1 x2 = truncf .bf16 (concatenate S1024x30 1
      [⟨S1024x5, membVec x0 x1 x2 0 slices_S1024x6_o0_0_S1024x1 slices_S6x5_o0_0_S1x5⟩,
       ⟨S1024x5, membVec x0 x1 x2 1 slices_S1024x6_o0_1_S1024x1 slices_S6x5_o1_0_S1x5⟩,
       ⟨S1024x5, membVec x0 x1 x2 2 slices_S1024x6_o0_2_S1024x1 slices_S6x5_o2_0_S1x5⟩,
       ⟨S1024x5, membVec x0 x1 x2 3 slices_S1024x6_o0_3_S1024x1 slices_S6x5_o3_0_S1x5⟩,
       ⟨S1024x5, membVec x0 x1 x2 4 slices_S1024x6_o0_4_S1024x1 slices_S6x5_o4_0_S1x5⟩,
       ⟨S1024x5, membVec x0 x1 x2 5 slices_S1024x6_o0_5_S1024x1 slices_S6x5_o5_0_S1x5⟩]
      concatenates_S1024x5_S1024x5_S1024x5_S1024x5_S1024x5_S1024x5_S1024x30_d1) bitsLt_bf16_f32 := rfl

/-- Six blocks of five columns side by side: column `k` is column `k % 5` of block `k / 5`. -/
theorem concat6_apply {α : Type} (f0 f1 f2 f3 f4 f5 : S1024x5.Idx → α)
    (h : Shape.Concatenates [S1024x5, S1024x5, S1024x5, S1024x5, S1024x5, S1024x5] S1024x30 1) (p : Fin 1024) (k : Fin 30)
    (n : ℕ) (hn : k.val / 5 = n) (g : S1024x5.Idx → α)
    (hg : [f0, f1, f2, f3, f4, f5][n]? = some g) :
    concatenate S1024x30 1 [⟨S1024x5, f0⟩, ⟨S1024x5, f1⟩, ⟨S1024x5, f2⟩, ⟨S1024x5, f3⟩, ⟨S1024x5, f4⟩, ⟨S1024x5, f5⟩] h (ix2 p k)
      = g (ix2 p ⟨k.val % 5, Nat.mod_lt _ (by decide)⟩) := by
  have hk := k.isLt
  have hn6 : n < 6 := by omega
  have hcoord : ∀ b : Fin S1024x5.rank, b.cast (rfl : S1024x5.rank = S1024x30.rank) ≠ (1 : Fin S1024x30.rank) →
      ((ix2 p (⟨k.val % 5, Nat.mod_lt _ (by decide)⟩ : Fin 5) : S1024x5.Idx) b).val = ((ix2 p k : S1024x30.Idx) (b.cast rfl)).val := by
    intro b hb
    match b with
    | ⟨0, _⟩ => rfl
    | ⟨1, _⟩ => exact absurd rfl hb
  interval_cases n
  · obtain rfl : f0 = g := by simpa using hg
    exact concatenate_apply_piece (t := S1024x30) 1 [⟨S1024x5, f0⟩, ⟨S1024x5, f1⟩, ⟨S1024x5, f2⟩, ⟨S1024x5, f3⟩, ⟨S1024x5, f4⟩, ⟨S1024x5, f5⟩] h (ix2 p k) 0 (by show 0 < 6; omega) S1024x5 f0 rfl rfl 0 rfl _ hcoord (by show 0 + k.val % 5 = k.val; omega)
  · obtain rfl : f1 = g := by simpa using hg
    exact concatenate_apply_piece (t := S1024x30) 1 [⟨S1024x5, f0⟩, ⟨S1024x5, f1⟩, ⟨S1024x5, f2⟩, ⟨S1024x5, f3⟩, ⟨S1024x5, f4⟩, ⟨S1024x5, f5⟩] h (ix2 p k) 1 (by show 1 < 6; omega) S1024x5 f1 rfl rfl 5 rfl _ hcoord (by show 5 + k.val % 5 = k.val; omega)
  · obtain rfl : f2 = g := by simpa using hg
    exact concatenate_apply_piece (t := S1024x30) 1 [⟨S1024x5, f0⟩, ⟨S1024x5, f1⟩, ⟨S1024x5, f2⟩, ⟨S1024x5, f3⟩, ⟨S1024x5, f4⟩, ⟨S1024x5, f5⟩] h (ix2 p k) 2 (by show 2 < 6; omega) S1024x5 f2 rfl rfl 10 rfl _ hcoord (by show 10 + k.val % 5 = k.val; omega)
  · obtain rfl : f3 = g := by simpa using hg
    exact concatenate_apply_piece (t := S1024x30) 1 [⟨S1024x5, f0⟩, ⟨S1024x5, f1⟩, ⟨S1024x5, f2⟩, ⟨S1024x5, f3⟩, ⟨S1024x5, f4⟩, ⟨S1024x5, f5⟩] h (ix2 p k) 3 (by show 3 < 6; omega) S1024x5 f3 rfl rfl 15 rfl _ hcoord (by show 15 + k.val % 5 = k.val; omega)
  · obtain rfl : f4 = g := by simpa using hg
    exact concatenate_apply_piece (t := S1024x30) 1 [⟨S1024x5, f0⟩, ⟨S1024x5, f1⟩, ⟨S1024x5, f2⟩, ⟨S1024x5, f3⟩, ⟨S1024x5, f4⟩, ⟨S1024x5, f5⟩] h (ix2 p k) 4 (by show 4 < 6; omega) S1024x5 f4 rfl rfl 20 rfl _ hcoord (by show 20 + k.val % 5 = k.val; omega)
  · obtain rfl : f5 = g := by simpa using hg
    exact concatenate_apply_piece (t := S1024x30) 1 [⟨S1024x5, f0⟩, ⟨S1024x5, f1⟩, ⟨S1024x5, f2⟩, ⟨S1024x5, f3⟩, ⟨S1024x5, f4⟩, ⟨S1024x5, f5⟩] h (ix2 p k) 5 (by show 5 < 6; omega) S1024x5 f5 rfl rfl 25 rfl _ hcoord (by show 25 + k.val % 5 = k.val; omega)

/-- Entry `(p, k)` of the flat memberships is flat entry `k` of sample `p`: input `k / 5`, set `k % 5` (the change of
    format is the identity on the extended reals). -/
theorem flatVec_apply (x0 : Vec Ideal S1024x6 .f32) (x1 x2 : Vec Ideal S6x5 .f32) (p : Fin 1024) (k : Fin 30) :
    flatVec x0 x1 x2 (ix2 p k) = Fuzzy.membFlat (fun v => x0 (ix2 p v)) x1 x2 k.val := by
  have hk := k.isLt
  rw [flatVec_eq, truncf_apply]
  unfold Fuzzy.membFlat
  rw [dif_pos hk]
  obtain h | h | h | h | h | h : k.val / 5 = 0 ∨ k.val / 5 = 1 ∨ k.val / 5 = 2 ∨ k.val / 5 = 3 ∨ k.val / 5 = 4 ∨ k.val / 5 = 5 := by
    omega
  · rw [concat6_apply _ _ _ _ _ _ _ p k 0 h _ rfl, membVec_apply x0 x1 x2 0 (by decide)]
    exact congrArg (fun v => Fuzzy.memb _ x1 x2 v _) (Fin.ext h.symm)
  · rw [concat6_apply _ _ _ _ _ _ _ p k 1 h _ rfl, membVec_apply x0 x1 x2 1 (by decide)]
    exact congrArg (fun v => Fuzzy.memb _ x1 x2 v _) (Fin.ext h.symm)
  · rw [concat6_apply _ _ _ _ _ _ _ p k 2 h _ rfl, membVec_apply x0 x1 x2 2 (by decide)]
    exact congrArg (fun v => Fuzzy.memb _ x1 x2 v _) (Fin.ext h.symm)
  · rw [concat6_apply _ _ _ _ _ _ _ p k 3 h _ rfl, membVec_apply x0 x1 x2 3 (by decide)]
    exact congrArg (fun v => Fuzzy.memb _ x1 x2 v _) (Fin.ext h.symm)
  · rw [concat6_apply _ _ _ _ _ _ _ p k 4 h _ rfl, membVec_apply x0 x1 x2 4 (by decide)]
    exact congrArg (fun v => Fuzzy.memb _ x1 x2 v _) (Fin.ext h.symm)
  · rw [concat6_apply _ _ _ _ _ _ _ p k 5 h _ rfl, membVec_apply x0 x1 x2 5 (by decide)]
    exact congrArg (fun v => Fuzzy.memb _ x1 x2 v _) (Fin.ext h.symm)

/-! ## The firing strengths -/

/-- The memberships the rules name as antecedent `i`, as the body computes them: the flat memberships times table `i`. -/
def ruleVec (x0 : Vec Ideal S1024x6 .f32) (x1 x2 : Vec Ideal S6x5 .f32) (x3 : Vec Ideal S6x30x2048 .bf16) (i : ℕ)
    (inb : ∀ a, (![i, 0, 0] : Fin 3 → Nat) a + S1x30x2048.size a ≤ S6x30x2048.size a) : FVec Ideal S1024x2048 .f32 :=
  matmul (φ₂ := .bf16) dot_S1024x30_S30x2048_S1024x2048_1_0_0_1_n_n none (flatVec x0 x1 x2)
    (shapeCast S30x2048 (View.ld x3 (Rect.unit (s := S6x30x2048) ![i, 0, 0] S1x30x2048.size inb) : FVec Ideal S1x30x2048 .bf16) shapeCasts_S1x30x2048_S30x2048)
    (constant S1024x2048 .f32 0x00000000#32)

section Tables
variable (x0 : Vec Ideal S1024x6 .f32) (x1 x2 : Vec Ideal S6x5 .f32) (x3 : Vec Ideal S6x30x2048 .bf16)
  (ir : Fuzzy.SIR.Idx → BitVec 32)
  (hr : ∀ (r : Fin 2048) (i : Fin 6), (ir (ix2 r i)).toNat < 30)
  (hx3 : ∀ (i : Fin 6) (k : Fin 30) (r : Fin 2048), x3 (ix3 i k r) = if (ir (ix2 r i)).toNat = k.val then (1 : EReal) else 0)
include hr hx3

/-- Entry `(p, r)` of it is the membership of sample `p` at the flat entry rule `r` names as antecedent `i`. -/
theorem ruleVec_apply (i : ℕ) (hi : i < 6)
    (inb : ∀ a, (![i, 0, 0] : Fin 3 → Nat) a + S1x30x2048.size a ≤ S6x30x2048.size a) (p : Fin 1024) (r : Fin 2048) :
    ruleVec x0 x1 x2 x3 i inb (ix2 p r) = Fuzzy.membFlat (fun v => x0 (ix2 p v)) x1 x2 (Fuzzy.ante ir r ⟨i, hi⟩) :=
  matmulA_onehot (flatVec x0 x1 x2) _ shapeCasts_S1x30x2048_S30x2048 (Fuzzy.membFlat (fun v => x0 (ix2 p v)) x1 x2)
    (Fuzzy.ante ir r ⟨i, hi⟩) (hr r ⟨i, hi⟩) p r (fun k => flatVec_apply x0 x1 x2 p k)
    (fun k => (ld_table x3 i hi inb 0 k r).trans (hx3 ⟨i, hi⟩ k r))

/-- The firing strengths as the body computes them: the least of the six antecedents' memberships, taken in order. -/
def strengthVec (x0 : Vec Ideal S1024x6 .f32) (x1 x2 : Vec Ideal S6x5 .f32) (x3 : Vec Ideal S6x30x2048 .bf16) :
    FVec Ideal S1024x2048 .f32 :=
  minimumf (minimumf (minimumf (minimumf (minimumf
    (ruleVec x0 x1 x2 x3 0 inb_S6x30x2048_S1x30x2048_0_0_0) (ruleVec x0 x1 x2 x3 1 inb_S6x30x2048_S1x30x2048_1_0_0))
    (ruleVec x0 x1 x2 x3 2 inb_S6x30x2048_S1x30x2048_2_0_0)) (ruleVec x0 x1 x2 x3 3 inb_S6x30x2048_S1x30x2048_3_0_0))
    (ruleVec x0 x1 x2 x3 4 inb_S6x30x2048_S1x30x2048_4_0_0)) (ruleVec x0 x1 x2 x3 5 inb_S6x30x2048_S1x30x2048_5_0_0)

/-- Entry `(p, r)` of them is rule `r`'s firing strength on sample `p`. -/
theorem strengthVec_apply (p : Fin 1024) (r : Fin 2048) :
    strengthVec x0 x1 x2 x3 (ix2 p r) = Fuzzy.strength (fun v => x0 (ix2 p v)) x1 x2 ir r := by
  unfold strengthVec Fuzzy.strength
  simp only [minimumf_apply]
  rw [ruleVec_apply x0 x1 x2 x3 ir hr hx3 0 (by decide), ruleVec_apply x0 x1 x2 x3 ir hr hx3 1 (by decide),
    ruleVec_apply x0 x1 x2 x3 ir hr hx3 2 (by decide), ruleVec_apply x0 x1 x2 x3 ir hr hx3 3 (by decide),
    ruleVec_apply x0 x1 x2 x3 ir hr hx3 4 (by decide), ruleVec_apply x0 x1 x2 x3 ir hr hx3 5 (by decide)]
  rfl

end Tables

/-! ## The norm, the shares and the weighted sums -/

/-- The L¹ norm of a block of strengths, sample by sample, as the body writes it: the sum over the rules of |s|. -/
def l1Vec (S : FVec Ideal S1024x2048 .f32) : FVec Ideal S1024 .f32 :=
  multiReduction (F := Ideal) .add [1] S1024 (absf S) 0x00000000#32 reduces_S1024x2048_S1024 (.inl rfl) rfl

/-- Entry `p` of it: the sum over the rules of max s (-s). -/
theorem l1Vec_apply (S : FVec Ideal S1024x2048 .f32) (p : Fin 1024) :
    l1Vec S (ix1 p) = ∑ r : Fin 2048, max (S (ix2 p r)) (-(S (ix2 p r))) := by
  unfold l1Vec
  refine (Ideal.multiReduction_add_single (absf S) 0x00000000#32 reduces_S1024x2048_S1024 (.inl rfl) rfl (ix1 p)).trans ?_
  refine Finset.sum_congr rfl fun r _ => ?_
  have e : reduces_S1024x2048_S1024.lift (ix1 p) r = ix2 p r := by
    funext ax; apply Fin.ext
    match ax with
    | ⟨0, _⟩ => rfl
    | ⟨1, _⟩ => rfl
  rw [e]
  rfl

/-- Each strength over the sample's norm, or over the floor if the norm is smaller, as the body writes it. -/
def shareVec (S : FVec Ideal S1024x2048 .f32) : FVec Ideal S1024x2048 .f32 :=
  divf S (broadcastTo S1024x2048
    (maximumf (shapeCast S1024x1 (l1Vec S) shapeCasts_S1024_S1024x1) (broadcast S1024x1 (Scalar.ofBits (F := Ideal) .f32 0x2B8CBCCC#32)))
    broadcasts_S1024x1_S1024x2048)

/-- Entry `(p, r)` of them. -/
theorem shareVec_apply (S : FVec Ideal S1024x2048 .f32) (p : Fin 1024) (r : Fin 2048) :
    shareVec S (ix2 p r)
      = Ideal.div (S (ix2 p r)) (max (∑ r' : Fin 2048, max (S (ix2 p r')) (-(S (ix2 p r')))) Fuzzy.floorLit) := by
  unfold shareVec
  rw [divf_apply, broadcastTo_a1_ab_apply, maximumf_apply, shapeCast_a_a1_apply, l1Vec_apply]
  rfl

theorem dotB_lhs0 (j : S2x1024.Idx) (k : dot_S2x2048_S1024x2048_S2x1024_1_1_0_0_n_n.contr.Idx) :
    (dot_S2x2048_S1024x2048_S2x1024_1_1_0_0_n_n.lhsIdx j k 0).val = (j 0).val := by
  simp [DotDims.lhsIdx, dot_S2x2048_S1024x2048_S2x1024_1_1_0_0_n_n]; rfl

theorem dotB_lhs1 (j : S2x1024.Idx) (k : dot_S2x2048_S1024x2048_S2x1024_1_1_0_0_n_n.contr.Idx) :
    (dot_S2x2048_S1024x2048_S2x1024_1_1_0_0_n_n.lhsIdx j k 1).val = (k ⟨0, by decide⟩).val :=
  DotDims.lhsIdx_val_of_single dot_S2x2048_S1024x2048_S2x1024_1_1_0_0_n_n rfl j k

theorem dotB_rhs0 (j : S2x1024.Idx) (k : dot_S2x2048_S1024x2048_S2x1024_1_1_0_0_n_n.contr.Idx) :
    (dot_S2x2048_S1024x2048_S2x1024_1_1_0_0_n_n.rhsIdx j k 0).val = (j 1).val := by
  simp [DotDims.rhsIdx, dot_S2x2048_S1024x2048_S2x1024_1_1_0_0_n_n]; rfl

theorem dotB_rhs1 (j : S2x1024.Idx) (k : dot_S2x2048_S1024x2048_S2x1024_1_1_0_0_n_n.contr.Idx) :
    (dot_S2x2048_S1024x2048_S2x1024_1_1_0_0_n_n.rhsIdx j k 1).val = (k ⟨0, by decide⟩).val :=
  DotDims.rhsIdx_val_of_single dot_S2x2048_S1024x2048_S2x1024_1_1_0_0_n_n rfl j k

/-- The product at output `o` and sample `p`: the sum over the rules of centre times share. -/
theorem matmulB_apply (A : FVec Ideal S2x2048 .bf16) (B : FVec Ideal S1024x2048 .bf16) (o : Fin 2) (p : Fin 1024) :
    matmul dot_S2x2048_S1024x2048_S2x1024_1_1_0_0_n_n none A B (constant S2x1024 .f32 0x00000000#32) (ix2 o p)
      = ∑ r : Fin 2048, A (ix2 o r) * B (ix2 p r) := by
  show FloatOps.matmul _ none A B (constant S2x1024 .f32 0x00000000#32) (ix2 o p) = _
  rw [Ideal.matmul_constant_zero_apply,
    ← Equiv.sum_comp (contrEquiv1 dot_S2x2048_S1024x2048_S2x1024_1_1_0_0_n_n 2048 rfl rfl).symm]
  refine Finset.sum_congr rfl fun c _ => ?_
  have c2 := contrEquiv1_symm_val dot_S2x2048_S1024x2048_S2x1024_1_1_0_0_n_n 2048 rfl rfl c
  have l2 : dot_S2x2048_S1024x2048_S2x1024_1_1_0_0_n_n.lhsIdx (ix2 o p)
      ((contrEquiv1 dot_S2x2048_S1024x2048_S2x1024_1_1_0_0_n_n 2048 rfl rfl).symm c) = ix2 o c := by
    funext ax; apply Fin.ext
    match ax with
    | ⟨0, _⟩ => exact dotB_lhs0 _ _
    | ⟨1, _⟩ => exact (dotB_lhs1 _ _).trans c2
  have r2 : dot_S2x2048_S1024x2048_S2x1024_1_1_0_0_n_n.rhsIdx (ix2 o p)
      ((contrEquiv1 dot_S2x2048_S1024x2048_S2x1024_1_1_0_0_n_n 2048 rfl rfl).symm c) = ix2 p c := by
    funext ax; apply Fin.ext
    match ax with
    | ⟨0, _⟩ => exact dotB_rhs0 _ _
    | ⟨1, _⟩ => exact (dotB_rhs1 _ _).trans c2
  rw [l2, r2]

/-- The weighted sums as the body writes them: the centres times the shares, the shares narrowed (the identity here). -/
def crispVec (S : FVec Ideal S1024x2048 .f32) (x4 : FVec Ideal S2x2048 .bf16) : FVec Ideal S2x1024 .f32 :=
  matmul dot_S2x2048_S1024x2048_S2x1024_1_1_0_0_n_n none (shapeCast S2x2048 x4 shapeCasts_S2x2048_S2x2048)
    (truncf .bf16 (shareVec S) bitsLt_bf16_f32) (constant S2x1024 .f32 0x00000000#32)

/-- A cast to the same shape reads the operand at the same index. -/
theorem shapeCast_same_apply {α : Type} {a b : ℕ} (x : (⟨2, ![a, b]⟩ : Shape).Idx → α)
    (h : (⟨2, ![a, b]⟩ : Shape).ShapeCasts ⟨2, ![a, b]⟩) (i : Fin a) (j : Fin b) :
    shapeCast ⟨2, ![a, b]⟩ x h (ix2 i j) = x (ix2 i j) :=
  shapeCast_apply x h _ _ rfl

/-- Entry `(o, p)` of them: the sum over the rules of centre `(o, r)` times share `(p, r)`. -/
theorem crispVec_apply (S : FVec Ideal S1024x2048 .f32) (x4 : FVec Ideal S2x2048 .bf16) (o : Fin 2) (p : Fin 1024) :
    crispVec S x4 (ix2 o p) = ∑ r : Fin 2048, x4 (ix2 o r) * shareVec S (ix2 p r) := by
  unfold crispVec
  rw [matmulB_apply]
  refine Finset.sum_congr rfl fun r _ => ?_
  rw [shapeCast_same_apply, truncf_apply]

/-! ## The two outputs -/

/-- The block of results as the body writes it from the strengths and the centres: row 0 is 4·tanh of the first weighted
    sum (plus 0), row 1 is 0.75·tanh of the second plus 0.75; the scalars are carried as float words. -/
def outVec (S : FVec Ideal S1024x2048 .f32) (x4 : FVec Ideal S2x2048 .bf16) : FVec Ideal S2x1024 .f32 :=
  concatenate S2x1024 0
    [⟨S1x1024, addf (mulf (tanh (extractStridedSlice S1x1024 ![0, 0] (crispVec S x4) slices_S2x1024_o0_0_S1x1024))
        (broadcast S1x1024 (Scalar.ofBits (F := Ideal) .f32 0x40800000#32)))
        (broadcast S1x1024 (Scalar.ofBits (F := Ideal) .f32 0x00000000#32))⟩,
     ⟨S1x1024, addf (mulf (tanh (extractStridedSlice S1x1024 ![1, 0] (crispVec S x4) slices_S2x1024_o1_0_S1x1024))
        (broadcast S1x1024 (Scalar.ofBits (F := Ideal) .f32 0x3F400000#32)))
        (broadcast S1x1024 (Scalar.ofBits (F := Ideal) .f32 0x3F400000#32))⟩]
    concatenates_S1x1024_S1x1024_S2x1024_d0

/-- Entry `(o, p)` of it: row `o` of the concatenation is piece `o`, whose scale and shift are output `o`'s words. -/
theorem outVec_apply (S : FVec Ideal S1024x2048 .f32) (x4 : FVec Ideal S2x2048 .bf16) (o : Fin 2) (p : Fin 1024) :
    outVec S x4 (ix2 o p)
      = Ideal.tanh (crispVec S x4 (ix2 o p)) * Ideal.ofBits .f32 (Fuzzy.scaleWord o) + Ideal.ofBits .f32 (Fuzzy.shiftWord o) := by
  have ho : o = 0 ∨ o = 1 := by
    rcases o with ⟨_ | _ | n, h⟩
    · left; rfl
    · right; rfl
    · omega
  unfold outVec
  rcases ho with rfl | rfl
  · refine (concatenate_pair_apply_left (t := S2x1024) 0 _ _ concatenates_S1x1024_S1x1024_S2x1024_d0 (ix2 (0 : Fin 2) p) rfl
      (ix2 (0 : Fin 1) p) (fun b => by match b with | ⟨0, _⟩ => rfl | ⟨1, _⟩ => rfl)).trans ?_
    show Ideal.tanh (extractStridedSlice S1x1024 ![0, 0] (crispVec S x4) slices_S2x1024_o0_0_S1x1024 (ix2 (0 : Fin 1) p))
      * Ideal.ofBits .f32 0x40800000#32 + Ideal.ofBits .f32 0x00000000#32 = _
    rw [slice2_axis0_apply 0 (crispVec S x4) slices_S2x1024_o0_0_S1x1024 (0 : Fin 1) p (0 : Fin 2) rfl]
    rfl
  · refine (concatenate_pair_apply_right (t := S2x1024) 0 _ _ concatenates_S1x1024_S1x1024_S2x1024_d0 (ix2 (1 : Fin 2) p) rfl rfl
      (ix2 (0 : Fin 1) p) (fun b hb => by
        match b with
        | ⟨0, _⟩ => exact absurd rfl hb
        | ⟨1, _⟩ => rfl) rfl).trans ?_
    show Ideal.tanh (extractStridedSlice S1x1024 ![1, 0] (crispVec S x4) slices_S2x1024_o1_0_S1x1024 (ix2 (0 : Fin 1) p))
      * Ideal.ofBits .f32 0x3F400000#32 + Ideal.ofBits .f32 0x3F400000#32 = _
    rw [slice2_axis0_apply 1 (crispVec S x4) slices_S2x1024_o1_0_S1x1024 (0 : Fin 1) p (1 : Fin 2) rfl]
    rfl

/-! ## The block the body stores -/

theorem zeros2 : (![0, 0] : Fin 2 → Nat) = fun _ => 0 := funext fun a => by fin_cases a <;> rfl

/-- The one store covers the buffer and the samples, centres, widths and output centres are loaded whole: the block is
    `outVec` of the strengths. -/
theorem out0_5_eq (x0 : Vec Ideal S1024x6 .f32) (x1 x2 : Vec Ideal S6x5 .f32) (x3 : Vec Ideal S6x30x2048 .bf16)
    (x4 : Vec Ideal S2x2048 .bf16) :
    out0_5 (F := Ideal) x0 x1 x2 x3 x4 = outVec (strengthVec x0 x1 x2 x3) x4 := by
  unfold out0_5
  rw [View.canon_unit_zero zeros2]
  simp only [View.ld_unit_zero (S := S1024x6) zeros2, View.ld_unit_zero (S := S6x5) zeros2,
    View.ld_unit_zero (S := S2x2048) zeros2]
  rfl

/-- The block the body stores, at output `o` and sample `p` of the block: the network's output `o` on the sample's inputs,
    when the table block `x3` is the one-hot table of the rules' antecedents (all in range) and `x4` the transposed table
    of output centres. -/
theorem out0_5_apply (x0 : Vec Ideal S1024x6 .f32) (x1 x2 : Vec Ideal S6x5 .f32) (x3 : Vec Ideal S6x30x2048 .bf16)
    (x4 : Vec Ideal S2x2048 .bf16) (ir : Fuzzy.SIR.Idx → BitVec 32) (ow : Fuzzy.SOW.Idx → EReal)
    (hr : ∀ (r : Fin 2048) (i : Fin 6), (ir (ix2 r i)).toNat < 30)
    (hx3 : ∀ (i : Fin 6) (k : Fin 30) (r : Fin 2048), x3 (ix3 i k r) = if (ir (ix2 r i)).toNat = k.val then (1 : EReal) else 0)
    (hx4 : ∀ (o : Fin 2) (r : Fin 2048), x4 (ix2 o r) = ow (ix2 r o))
    (o : Fin 2) (p : Fin 1024) :
    out0_5 (F := Ideal) x0 x1 x2 x3 x4 (ix2 o p) = Fuzzy.outAt (fun v => x0 (ix2 p v)) x1 x2 ir ow o := by
  rw [out0_5_eq, outVec_apply]
  unfold Fuzzy.outAt
  have hc : crispVec (strengthVec x0 x1 x2 x3) x4 (ix2 o p) = Fuzzy.crisp (fun v => x0 (ix2 p v)) x1 x2 ir ow o := by
    rw [crispVec_apply]
    unfold Fuzzy.crisp
    refine Finset.sum_congr rfl fun r _ => ?_
    rw [shareVec_apply, hx4, mul_comm]
    unfold Fuzzy.share Fuzzy.l1
    simp only [strengthVec_apply x0 x1 x2 x3 ir hr hx3]
  rw [hc]

end Cert.KernelIdeal.Hand

end
-- ==== Proof.KerValue.lean ====
/-
  The kernel's result array, from the blocks its grid points write back: block `t` of the transposed result holds the
  two outputs of samples 1024·t … 1024·t + 1023; the sixteen blocks tile the array; the host line after the region
  transposes it back.
-/
import proofs.«413456_j44873818308905_2_alg».proof.Proof.Gen.KernelIdeal.Frame
import proofs.«413456_j44873818308905_2_alg».proof.Proof.Spec
import proofs.«413456_j44873818308905_2_alg».proof.Proof.KerHost
import proofs.«413456_j44873818308905_2_alg».proof.Proof.KerBody
import Idealize.ShloMosaic.Lib.ValueIdx
import Idealize.ShloMosaic.Lib.ValueLayout
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable (m : (ℓ : Loc nD τ sig) → Buf (Elt Ideal) ℓ) (ρ : Dev nD → PrngReg)

theorem N16 : cfg0.N = 16 := N_0

/-- Where each window's block sits at grid point `t`: the samples' window and the result's move with the point, the
    tables are whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

/-- Row `p` of the samples' block at point `t` is sample 1024·t + p. -/
theorem xblk_apply (c : Dev nD) (t : Fin cfg0.N) (p : Fin 1024) (v : Fin 6) :
    (iblk m c 0 t : Vec Ideal S1024x6 .f32) (ix2 p v)
      = (V m c main_arg0 : S16384x6.Idx → EReal) (ix2 ⟨1024 * t.val + p.val, by have := t.isLt; have := N16; omega⟩ v) := by
  obtain ⟨e0, e1, -⟩ := idx_facts t
  unfold iblk
  show V m c main_arg0 _ = V m c main_arg0 _
  congr 1
  funext a
  apply Fin.ext
  match a with
  | ⟨0, _⟩ => show win0_0.index t (0 : Fin 2) * 1024 + 1 * p.val = 1024 * t.val + p.val; rw [e0]; omega
  | ⟨1, _⟩ => show win0_0.index t (1 : Fin 2) * 6 + 1 * v.val = v.val; rw [e1]; omega

/-- The centres' block is the whole array of centres. -/
theorem cblk_eq (c : Dev nD) (t : Fin cfg0.N) : (iblk m c 1 t : Vec Ideal S6x5 .f32) = V m c main_arg1 := by
  obtain ⟨-, -, e0, e1, -⟩ := idx_facts t
  funext j
  unfold iblk
  show V m c main_arg1 _ = V m c main_arg1 _
  congr 1
  funext a
  apply Fin.ext
  match a with
  | ⟨0, _⟩ => show win0_1.index t (0 : Fin 2) * 6 + 1 * (j 0).val = (j 0).val; rw [e0]; omega
  | ⟨1, _⟩ => show win0_1.index t (1 : Fin 2) * 5 + 1 * (j 1).val = (j 1).val; rw [e1]; omega

/-- The widths' block is the whole array of widths. -/
theorem wblk_eq (c : Dev nD) (t : Fin cfg0.N) : (iblk m c 2 t : Vec Ideal S6x5 .f32) = V m c main_arg2 := by
  obtain ⟨-, -, -, -, e0, e1, -⟩ := idx_facts t
  funext j
  unfold iblk
  show V m c main_arg2 _ = V m c main_arg2 _
  congr 1
  funext a
  apply Fin.ext
  match a with
  | ⟨0, _⟩ => show win0_2.index t (0 : Fin 2) * 6 + 1 * (j 0).val = (j 0).val; rw [e0]; omega
  | ⟨1, _⟩ => show win0_2.index t (1 : Fin 2) * 5 + 1 * (j 1).val = (j 1).val; rw [e1]; omega

/-- The one-hot table's block is the whole table. -/
theorem hblk_eq (c : Dev nD) (t : Fin cfg0.N) : (iblk m c 3 t : Vec Ideal S6x30x2048 .bf16) = V m c main_v7 := by
  obtain ⟨-, -, -, -, -, -, e0, e1, e2, -⟩ := idx_facts t
  funext j
  unfold iblk
  show V m c main_v7 _ = V m c main_v7 _
  congr 1
  funext a
  apply Fin.ext
  match a with
  | ⟨0, _⟩ => show win0_3.index t (0 : Fin 3) * 6 + 1 * (j 0).val = (j 0).val; rw [e0]; omega
  | ⟨1, _⟩ => show win0_3.index t (1 : Fin 3) * 30 + 1 * (j 1).val = (j 1).val; rw [e1]; omega
  | ⟨2, _⟩ => show win0_3.index t (2 : Fin 3) * 2048 + 1 * (j 2).val = (j 2).val; rw [e2]; omega

/-- The output centres' block is the whole transposed table. -/
theorem oblk_eq (c : Dev nD) (t : Fin cfg0.N) : (iblk m c 4 t : Vec Ideal S2x2048 .bf16) = V m c main_v16 := by
  obtain ⟨-, -, -, -, -, -, -, -, -, e0, e1, -⟩ := idx_facts t
  funext j
  unfold iblk
  show V m c main_v16 _ = V m c main_v16 _
  congr 1
  funext a
  apply Fin.ext
  match a with
  | ⟨0, _⟩ => show win0_4.index t (0 : Fin 2) * 2 + 1 * (j 0).val = (j 0).val; rw [e0]; omega
  | ⟨1, _⟩ => show win0_4.index t (1 : Fin 2) * 2048 + 1 * (j 1).val = (j 1).val; rw [e1]; omega

/-- The transposed result: entry (o, b) is output `o` of sample `b`. -/
def GT (c : Dev nD) : S2x16384.Idx → EReal := fun i =>
  Fuzzy.outAt (fun v => (m ((c : Thread nD τ).loc main_arg0) : S16384x6.Idx → EReal) (ix2 ⟨(i 1).val, idx2_lt1 i⟩ v))
    (m ((c : Thread nD τ).loc main_arg1)) (m ((c : Thread nD τ).loc main_arg2)) (m ((c : Thread nD τ).loc main_arg4))
    (kerOw (F := Ideal) (m ((c : Thread nD τ).loc main_arg3)) (m ((c : Thread nD τ).loc main_arg5))) ⟨(i 0).val, idx2_lt0 i⟩

/-- What point `t` writes back is block `t` of the transposed result. -/
theorem flushed_eq (hr : ∀ (c : Dev nD) (r : Fin 2048) (i : Fin 6), ((m ((c : Thread nD τ).loc main_arg4) : S2048x6.Idx → BitVec 32) (ix2 r i)).toNat < 30)
    (c : Dev nD) (t : Fin cfg0.N) :
    (dats m 0 c).flushed 5 t = ((cfg0.win 5).blk t).view.read (Elt Ideal) (GT m c) := by
  show (cfg0.win 5).cut (grid0.coords t) ((dats m 0 c).after 5 t) = _
  rw [after0_5]
  funext j
  obtain ⟨o, p, rfl⟩ : ∃ (o : Fin 2) (p : Fin 1024), j = ix2 o p := ⟨j 0, j 1, eq_ix2 j⟩
  obtain ⟨-, -, -, -, -, -, -, -, -, -, -, e0, e1⟩ := idx_facts t
  have hemb : ((cfg0.win 5).blk t).view.emb (ix2 o p)
      = (ix2 o ⟨1024 * t.val + p.val, by have := t.isLt; have := N16; omega⟩ : S2x16384.Idx) := by
    funext a
    apply Fin.ext
    match a with
    | ⟨0, _⟩ => show win0_5.index t (0 : Fin 2) * 2 + 1 * o.val = o.val; rw [e0]; omega
    | ⟨1, _⟩ => show win0_5.index t (1 : Fin 2) * 1024 + 1 * p.val = 1024 * t.val + p.val; rw [e1]; omega
  show out0_5 (iblk m c 0 t) (iblk m c 1 t) (iblk m c 2 t) (iblk m c 3 t) (iblk m c 4 t) (ix2 o p)
    = GT m c (((cfg0.win 5).blk t).view.emb (ix2 o p))
  rw [hemb]
  refine (out0_5_apply (iblk m c 0 t) (iblk m c 1 t) (iblk m c 2 t) (iblk m c 3 t) (iblk m c 4 t)
    (m ((c : Thread nD τ).loc main_arg4)) (kerOw (F := Ideal) (m ((c : Thread nD τ).loc main_arg3)) (m ((c : Thread nD τ).loc main_arg5)))
    (hr c) ?_ ?_ o p).trans ?_
  · intro i k r
    rw [hblk_eq, V_hot, hotTable_apply]
  · intro o' r
    rw [oblk_eq, V_owT, owT_apply]
  · show Fuzzy.outAt _ _ _ _ _ o = Fuzzy.outAt _ _ _ _ _ o
    rw [cblk_eq, wblk_eq, V_main_arg1, V_main_arg2]
    congr 1
    funext v
    rw [xblk_apply, V_main_arg0]

/-- Every entry of the transposed result lies in the block of the point that computes its sample. -/
theorem final (hr : ∀ (c : Dev nD) (r : Fin 2048) (i : Fin 6), ((m ((c : Thread nD τ).loc main_arg4) : S2048x6.Idx → BitVec 32) (ix2 r i)).toNat < 30)
    (c : Dev nD) : (dats m 0 c).arrAt 5 cfg0.N = GT m c :=
  (dats m 0 c).arrAt_eq_of_cover 5 (GT m c) (fun t _ => flushed_eq m hr c t) fun i => by
    have h1 : (i 1 : Nat) < 16384 := (i 1).isLt
    have h0 : (i 0 : Nat) < 2 := (i 0).isLt
    have ht : (i 1 : Nat) / 1024 < cfg0.N := by have := N16; omega
    obtain ⟨-, -, -, -, -, -, -, -, -, -, -, e0, e1⟩ := idx_facts ⟨(i 1 : Nat) / 1024, ht⟩
    refine ⟨⟨(i 1 : Nat) / 1024, ht⟩, flush0_5 _, ?_⟩
    show i ∈ ((View.whole main_v17).slice (win0_5.rect ⟨(i 1 : Nat) / 1024, ht⟩)).set
    rw [View.set_slice_whole, Rect.mem_set_unit]
    intro a
    match a with
    | ⟨0, _⟩ =>
      show win0_5.index ⟨(i 1 : Nat) / 1024, ht⟩ (0 : Fin 2) * 2 ≤ (i 0 : Nat) ∧ (i 0 : Nat) < win0_5.index ⟨(i 1 : Nat) / 1024, ht⟩ (0 : Fin 2) * 2 + 2
      rw [e0]; omega
    | ⟨1, _⟩ =>
      show win0_5.index ⟨(i 1 : Nat) / 1024, ht⟩ (1 : Fin 2) * 1024 ≤ (i 1 : Nat) ∧ (i 1 : Nat) < win0_5.index ⟨(i 1 : Nat) / 1024, ht⟩ (1 : Fin 2) * 1024 + 1024
      rw [e1]; show (i 1 : Nat) / 1024 * 1024 ≤ (i 1 : Nat) ∧ (i 1 : Nat) < (i 1 : Nat) / 1024 * 1024 + 1024; omega

/-- The host line after the region transposes the region's array: the program's result at (b, o) is the transposed
    result at (o, b). -/
theorem tail_eq (c : Dev nD) :
    (Pipeline.afterTail₀ cfgs (dats m) 0 (V0 m) [hostOps1] c main_v18 : FVec Ideal S16384x2 .f32)
      = transpose S16384x2 [1, 0] ((dats m 0 c).arrAt 5 cfg0.N : FVec Ideal S2x16384 .f32) Facts₀.transposes_S2x16384_S16384x2_1_0 := by
  unfold Pipeline.afterTail₀
  show StableHlo.after hostOps1 _ (Proc.devRef .tc main_v18) = _
  after_results
  rw [Pipeline.withArrays_arr spec0 launch0.win.arr_inj c _ _ 5]

/-- The program's result array is the network's result on the batch. -/
theorem result_eq (hr : ∀ (c : Dev nD) (r : Fin 2048) (i : Fin 6), ((m ((c : Thread nD τ).loc main_arg4) : S2048x6.Idx → BitVec 32) (ix2 r i)).toNat < 30)
    (c : Dev nD) :
    (Pipeline.afterTail₀ cfgs (dats m) 0 (V0 m) [hostOps1] c main_v18 : FVec Ideal S16384x2 .f32)
      = Fuzzy.result (m ((c : Thread nD τ).loc main_arg1)) (m ((c : Thread nD τ).loc main_arg2)) (m ((c : Thread nD τ).loc main_arg4))
          (kerOw (F := Ideal) (m ((c : Thread nD τ).loc main_arg3)) (m ((c : Thread nD τ).loc main_arg5)))
          (m ((c : Thread nD τ).loc main_arg0) : S16384x6.Idx → EReal) := by
  rw [tail_eq, final m hr c]
  funext j
  obtain ⟨b, o, rfl⟩ : ∃ (b : Fin 16384) (o : Fin 2), j = ix2 b o := ⟨j 0, j 1, eq_ix2 j⟩
  rw [transpose_ix2_apply, Fuzzy.result_ix2]
  rfl

/-- The run, read: the result buffer ends at the network's result on the batch, and the arguments as they were. -/
theorem run (hr : ∀ (c : Dev nD) (r : Fin 2048) (i : Fin 6), ((m ((c : Thread nD τ).loc main_arg4) : S2048x6.Idx → BitVec 32) (ix2 r i)).toNat < 30) :
    θ_run defs (onTc (τ := τ) (main (F := Ideal))) ⟨m, fun _ => 0, ρ⟩ fun r => ∀ c : Dev nD,
      r.2.mem ((c.tc : Thread nD τ).loc main_v18)
        = Fuzzy.result (m ((c : Thread nD τ).loc main_arg1)) (m ((c : Thread nD τ).loc main_arg2)) (m ((c : Thread nD τ).loc main_arg4))
            (kerOw (F := Ideal) (m ((c : Thread nD τ).loc main_arg3)) (m ((c : Thread nD τ).loc main_arg5)))
            (m ((c : Thread nD τ).loc main_arg0) : S16384x6.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v18 (Pipeline.mem_restRefs_of main_v18 (by decide) (by decide))).trans (result_eq m hr c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.Hand

end
-- ==== Proof.RefTerm.lean ====
/-
  The reference's result as one term of its six argument arrays, cut into the stages of the computation: the
  memberships laid flat, the rules' antecedent indices, the firing strengths, the shares, the table of output
  centres, and the weighted sums squashed, scaled and shifted. Each stage is the program's own operations, in the
  program's order, applied to the stage's inputs.
-/
import proofs.«413456_j44873818308905_2_alg».proof.ReferenceIdeal

noncomputable section

namespace Cert.ReferenceIdeal.Hand

open Idealize.ShloMosaic Cert.ReferenceIdeal
open Cert.ReferenceIdeal.Facts₀ Cert.ReferenceIdeal.Facts

variable {F : FTy → Type} [FloatOps F] [Cert.ReferenceIdeal.Facts]

/-- The thirty memberships of every sample, laid flat (operations %0 to %11). -/
def refFuzz (a0 : FVec F S16384x6 .f32) (a1 a2 : FVec F S6x5 .f32) : FVec F S16384x30 .f32 :=
  let v0 : FVec F S16384x6x1 .f32 := broadcastInDim S16384x6x1 ![0, 1] bcast_S16384x6_S16384x6x1_0_1 a0
  let v1 : FVec F S1x6x5 .f32 := broadcastInDim S1x6x5 ![1, 2] bcast_S6x5_S1x6x5_1_2 a1
  let v2 : FVec F S16384x6x5 .f32 := broadcastInDim S16384x6x5 ![0, 1, 2] bcast_S16384x6x1_S16384x6x5_0_1_2 v0
  let v3 : FVec F S16384x6x5 .f32 := broadcastInDim S16384x6x5 ![0, 1, 2] bcast_S1x6x5_S16384x6x5_0_1_2 v1
  let v4 : FVec F S16384x6x5 .f32 := subf v2 v3
  let v5 : FVec F S1x6x5 .f32 := broadcastInDim S1x6x5 ![1, 2] bcast_S6x5_S1x6x5_1_2 a2
  let v6 : FVec F S16384x6x5 .f32 := broadcastInDim S16384x6x5 ![0, 1, 2] bcast_S1x6x5_S16384x6x5_0_1_2 v5
  let v7 : FVec F S16384x6x5 .f32 := Host.divf v4 v6
  let v8 : FVec F S16384x6x5 .f32 := Host.negf v7
  let v9 : FVec F S16384x6x5 .f32 := mulf v8 v7
  let v10 : FVec F S16384x6x5 .f32 := Host.exp v9
  shapeCast S16384x30 v10 shapeCasts_S16384x6x5_S16384x30

/-- The rules' antecedent indices as the gather takes them: a negative index counted from the end (operations %c to %17). -/
def refIdx (a4 : IVec S2048x6 32) : IVec S2048x6x1 32 :=
  let c : IVec S_ 32 := constantI S_ 32 0#32
  let v12 : IVec S2048x6 32 := broadcastInDim S2048x6 ![] bcast_S_S2048x6 c
  let v13 : IVec S2048x6 1 := cmpi .slt a4 v12
  let c_1 : IVec S_ 32 := constantI S_ 32 30#32
  let v14 : IVec S2048x6 32 := broadcastInDim S2048x6 ![] bcast_S_S2048x6 c_1
  let v15 : IVec S2048x6 32 := addi a4 v14
  let v16 : IVec S2048x6 32 := select v13 v15 a4
  broadcastInDim S2048x6x1 ![0, 1] bcast_S2048x6_S2048x6x1_0_1 v16

/-- The firing strengths: the gathered memberships, and their least over a rule's six antecedents (operations %18, %cst_2, %19). -/
def refStrength (fz : FVec F S16384x30 .f32) (idx : IVec S2048x6x1 32) : FVec F S16384x2048 .f32 :=
  let v18 : FVec F S16384x2048x6 .f32 := Host.gather gather_S16384x30_S2048x6x1_S16384x2048x6_0_1_n_n_1_2_163841 fz idx
  let cst_2 : FVec F S_ .f32 := constant S_ .f32 0x7F800000#32
  Host.reduce FloatOps.minimumf v18 cst_2 reducesTo_S16384x2048x6_S16384x2048_d2 h_S_

/-- The shares: each strength over the L¹ norm of its sample's strengths, the norm floored (operations %20 to %26). -/
def refShare (v19 : FVec F S16384x2048 .f32) : FVec F S16384x2048 .f32 :=
  let v20 : FVec F S16384x2048 .f32 := Host.absf v19
  let cst_3 : FVec F S_ .f32 := constant S_ .f32 0x00000000#32
  let v21 : FVec F S16384 .f32 := Host.reduceAdd v20 cst_3 reducesTo_S16384x2048_S16384_d1 h_S_
  let v22 : FVec F S16384x1 .f32 := broadcastInDim S16384x1 ![0] bcast_S16384_S16384x1_0 v21
  let cst_4 : FVec F S_ .f32 := constant S_ .f32 0x2B8CBCCC#32
  let v23 : FVec F S16384x1 .f32 := broadcastInDim S16384x1 ![] bcast_S_S16384x1 cst_4
  let v24 : FVec F S16384x1 .f32 := maximumf v22 v23
  let v25 : FVec F S16384x2048 .f32 := broadcastInDim S16384x2048 ![0, 1] bcast_S16384x1_S16384x2048_0_1 v24
  Host.divf v19 v25

/-- The rules' output centres: the centre each rule names for each output (operations %c_5 to %33). -/
def refOw (a3 : FVec F S12 .f32) (a5 : IVec S2048x2 32) : FVec F S2048x2 .f32 :=
  let c_5 : IVec S_ 32 := constantI S_ 32 0#32
  let v27 : IVec S2048x2 32 := broadcastInDim S2048x2 ![] bcast_S_S2048x2 c_5
  let v28 : IVec S2048x2 1 := cmpi .slt a5 v27
  let c_6 : IVec S_ 32 := constantI S_ 32 12#32
  let v29 : IVec S2048x2 32 := broadcastInDim S2048x2 ![] bcast_S_S2048x2 c_6
  let v30 : IVec S2048x2 32 := addi a5 v29
  let v31 : IVec S2048x2 32 := select v28 v30 a5
  let v32 : IVec S2048x2x1 32 := broadcastInDim S2048x2x1 ![0, 1] bcast_S2048x2_S2048x2x1_0_1 v31
  Host.gather gather_S12_S2048x2x1_S2048x2_n_0_n_n_0_2_1 a3 v32

/-- The outputs: the shares weighted by the output centres and summed, squashed, scaled and shifted (operations %34 to %41,
    with the two constant rows %cst and %cst_0). -/
def refTail (v26 : FVec F S16384x2048 .f32) (v33 : FVec F S2048x2 .f32) : FVec F S16384x2 .f32 :=
  let cst : FVec F S2 .f32 := fun i => FloatOps.ofBits .f32 (lit0 (S2.rowMajor i))
  let cst_0 : FVec F S2 .f32 := fun i => FloatOps.ofBits .f32 (lit1 (S2.rowMajor i))
  let v34 : FVec F S16384x2 .f32 := Host.dotGeneral dot_S16384x2048_S2048x2_S16384x2_1_0_0_1_n_n none v26 v33
  let v35 : FVec F S16384x2 .f32 := Host.tanh v34
  let v36 : FVec F S1x2 .f32 := broadcastInDim S1x2 ![1] bcast_S2_S1x2_1 cst
  let v37 : FVec F S16384x2 .f32 := broadcastInDim S16384x2 ![0, 1] bcast_S1x2_S16384x2_0_1 v36
  let v38 : FVec F S16384x2 .f32 := mulf v35 v37
  let v39 : FVec F S1x2 .f32 := broadcastInDim S1x2 ![1] bcast_S2_S1x2_1 cst_0
  let v40 : FVec F S16384x2 .f32 := broadcastInDim S16384x2 ![0, 1] bcast_S1x2_S16384x2_0_1 v39
  addf v38 v40

/-- The reference's result of its six arguments. -/
def refOut (a0 : FVec F S16384x6 .f32) (a1 a2 : FVec F S6x5 .f32) (a3 : FVec F S12 .f32) (a4 : IVec S2048x6 32)
    (a5 : IVec S2048x2 32) : FVec F S16384x2 .f32 :=
  refTail (refShare (refStrength (refFuzz a0 a1 a2) (refIdx a4))) (refOw a3 a5)

end Cert.ReferenceIdeal.Hand

end
-- ==== Proof.RefRun.lean ====
/-
  The reference program's run: its operations as a list, and that every weakly fair execution ends with the result
  buffer at the composed term of the arguments and the arguments unchanged.
-/
import proofs.«413456_j44873818308905_2_alg».proof.Proof.RefTerm
import proofs.«413456_j44873818308905_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The program's 51 operations, in the program's order: the two constant rows of scales and shifts; the memberships
    exp((-z)·z), z the input's distance from a set's centre in widths, laid flat (%0 to %11); the rules' antecedent
    indices, a negative one counted from the end (%c to %17); the gathered memberships and their least over a rule's six
    antecedents (%18 to %19); each strength over the floored L¹ norm of its sample's strengths (%20 to %26); the output
    centre each rule names (%c_5 to %33); the shares weighted by the centres and summed, squashed, scaled and shifted
    (%34 to %41). -/
abbrev ops : List (HloOp τ sig (Elt F)) :=
  [ nullary main_cst (fun i => FloatOps.ofBits .f32 (lit0 (S2.rowMajor i))),
    nullary main_cst_0 (fun i => FloatOps.ofBits .f32 (lit1 (S2.rowMajor i))),
    unary main_arg0 main_v0 (broadcastInDim S16384x6x1 ![0, 1] bcast_S16384x6_S16384x6x1_0_1 : (⟨S16384x6, .f32⟩ : BufTy).Contents (Elt F) → (⟨S16384x6x1, .f32⟩ : BufTy).Contents (Elt F)),
    unary main_arg1 main_v1 (broadcastInDim S1x6x5 ![1, 2] bcast_S6x5_S1x6x5_1_2 : (⟨S6x5, .f32⟩ : BufTy).Contents (Elt F) → (⟨S1x6x5, .f32⟩ : BufTy).Contents (Elt F)),
    unary main_v0 main_v2 (broadcastInDim S16384x6x5 ![0, 1, 2] bcast_S16384x6x1_S16384x6x5_0_1_2 : (⟨S16384x6x1, .f32⟩ : BufTy).Contents (Elt F) → (⟨S16384x6x5, .f32⟩ : BufTy).Contents (Elt F)),
    unary main_v1 main_v3 (broadcastInDim S16384x6x5 ![0, 1, 2] bcast_S1x6x5_S16384x6x5_0_1_2 : (⟨S1x6x5, .f32⟩ : BufTy).Contents (Elt F) → (⟨S16384x6x5, .f32⟩ : BufTy).Contents (Elt F)),
    binary main_v2 main_v3 main_v4 (subf : (⟨S16384x6x5, .f32⟩ : BufTy).Contents (Elt F) → (⟨S16384x6x5, .f32⟩ : BufTy).Contents (Elt F) → (⟨S16384x6x5, .f32⟩ : BufTy).Contents (Elt F)),
    unary main_arg2 main_v5 (broadcastInDim S1x6x5 ![1, 2] bcast_S6x5_S1x6x5_1_2 : (⟨S6x5, .f32⟩ : BufTy).Contents (Elt F) → (⟨S1x6x5, .f32⟩ : BufTy).Contents (Elt F)),
    unary main_v5 main_v6 (broadcastInDim S16384x6x5 ![0, 1, 2] bcast_S1x6x5_S16384x6x5_0_1_2 : (⟨S1x6x5, .f32⟩ : BufTy).Contents (Elt F) → (⟨S16384x6x5, .f32⟩ : BufTy).Contents (Elt F)),
    binary main_v4 main_v6 main_v7 (Host.divf : (⟨S16384x6x5, .f32⟩ : BufTy).Contents (Elt F) → (⟨S16384x6x5, .f32⟩ : BufTy).Contents (Elt F) → (⟨S16384x6x5, .f32⟩ : BufTy).Contents (Elt F)),
    unary main_v7 main_v8 (Host.negf : (⟨S16384x6x5, .f32⟩ : BufTy).Contents (Elt F) → (⟨S16384x6x5, .f32⟩ : BufTy).Contents (Elt F)),
    binary main_v8 main_v7 main_v9 (mulf : (⟨S16384x6x5, .f32⟩ : BufTy).Contents (Elt F) → (⟨S16384x6x5, .f32⟩ : BufTy).Contents (Elt F) → (⟨S16384x6x5, .f32⟩ : BufTy).Contents (Elt F)),
    unary main_v9 main_v10 (Host.exp : (⟨S16384x6x5, .f32⟩ : BufTy).Contents (Elt F) → (⟨S16384x6x5, .f32⟩ : BufTy).Contents (Elt F)),
    reshape main_v10 main_v11 rfl shapeCasts_S16384x6x5_S16384x30,
    nullary main_c (constantI S_ 32 0#32),
    unary main_c main_v12 (broadcastInDim S2048x6 ![] bcast_S_S2048x6 : (⟨S_, .i32⟩ : BufTy).Contents (Elt F) → (⟨S2048x6, .i32⟩ : BufTy).Contents (Elt F)),
    binary main_arg4 main_v12 main_v13 (cmpi .slt : (⟨S2048x6, .i32⟩ : BufTy).Contents (Elt F) → (⟨S2048x6, .i32⟩ : BufTy).Contents (Elt F) → (⟨S2048x6, .i1⟩ : BufTy).Contents (Elt F)),
    nullary main_c_1 (constantI S_ 32 30#32),
    unary main_c_1 main_v14 (broadcastInDim S2048x6 ![] bcast_S_S2048x6 : (⟨S_, .i32⟩ : BufTy).Contents (Elt F) → (⟨S2048x6, .i32⟩ : BufTy).Contents (Elt F)),
    binary main_arg4 main_v14 main_v15 (addi : (⟨S2048x6, .i32⟩ : BufTy).Contents (Elt F) → (⟨S2048x6, .i32⟩ : BufTy).Contents (Elt F) → (⟨S2048x6, .i32⟩ : BufTy).Contents (Elt F)),
    ternary main_v13 main_v15 main_arg4 main_v16 (select : (⟨S2048x6, .i1⟩ : BufTy).Contents (Elt F) → (⟨S2048x6, .i32⟩ : BufTy).Contents (Elt F) → (⟨S2048x6, .i32⟩ : BufTy).Contents (Elt F) → (⟨S2048x6, .i32⟩ : BufTy).Contents (Elt F)),
    unary main_v16 main_v17 (broadcastInDim S2048x6x1 ![0, 1] bcast_S2048x6_S2048x6x1_0_1 : (⟨S2048x6, .i32⟩ : BufTy).Contents (Elt F) → (⟨S2048x6x1, .i32⟩ : BufTy).Contents (Elt F)),
    binary main_v11 main_v17 main_v18 ((fun x i => Host.gather gather_S16384x30_S2048x6x1_S16384x2048x6_0_1_n_n_1_2_163841 x i) : (⟨S16384x30, .f32⟩ : BufTy).Contents (Elt F) → (⟨S2048x6x1, .i32⟩ : BufTy).Contents (Elt F) → (⟨S16384x2048x6, .f32⟩ : BufTy).Contents (Elt F)),
    nullary main_cst_2 (constant S_ .f32 0x7F800000#32),
    binary main_v18 main_cst_2 main_v19 ((fun x v => Host.reduce FloatOps.minimumf x v reducesTo_S16384x2048x6_S16384x2048_d2 h_S_) : (⟨S16384x2048x6, .f32⟩ : BufTy).Contents (Elt F) → (⟨S_, .f32⟩ : BufTy).Contents (Elt F) → (⟨S16384x2048, .f32⟩ : BufTy).Contents (Elt F)),
    unary main_v19 main_v20 (Host.absf : (⟨S16384x2048, .f32⟩ : BufTy).Contents (Elt F) → (⟨S16384x2048, .f32⟩ : BufTy).Contents (Elt F)),
    nullary main_cst_3 (constant S_ .f32 0x00000000#32),
    binary main_v20 main_cst_3 main_v21 ((fun x v => Host.reduceAdd x v reducesTo_S16384x2048_S16384_d1 h_S_) : (⟨S16384x2048, .f32⟩ : BufTy).Contents (Elt F) → (⟨S_, .f32⟩ : BufTy).Contents (Elt F) → (⟨S16384, .f32⟩ : BufTy).Contents (Elt F)),
    unary main_v21 main_v22 (broadcastInDim S16384x1 ![0] bcast_S16384_S16384x1_0 : (⟨S16384, .f32⟩ : BufTy).Contents (Elt F) → (⟨S16384x1, .f32⟩ : BufTy).Contents (Elt F)),
    nullary main_cst_4 (constant S_ .f32 0x2B8CBCCC#32),
    unary main_cst_4 main_v23 (broadcastInDim S16384x1 ![] bcast_S_S16384x1 : (⟨S_, .f32⟩ : BufTy).Contents (Elt F) → (⟨S16384x1, .f32⟩ : BufTy).Contents (Elt F)),
    binary main_v22 main_v23 main_v24 (maximumf : (⟨S16384x1, .f32⟩ : BufTy).Contents (Elt F) → (⟨S16384x1, .f32⟩ : BufTy).Contents (Elt F) → (⟨S16384x1, .f32⟩ : BufTy).Contents (Elt F)),
    unary main_v24 main_v25 (broadcastInDim S16384x2048 ![0, 1] bcast_S16384x1_S16384x2048_0_1 : (⟨S16384x1, .f32⟩ : BufTy).Contents (Elt F) → (⟨S16384x2048, .f32⟩ : BufTy).Contents (Elt F)),
    binary main_v19 main_v25 main_v26 (Host.divf : (⟨S16384x2048, .f32⟩ : BufTy).Contents (Elt F) → (⟨S16384x2048, .f32⟩ : BufTy).Contents (Elt F) → (⟨S16384x2048, .f32⟩ : BufTy).Contents (Elt F)),
    nullary main_c_5 (constantI S_ 32 0#32),
    unary main_c_5 main_v27 (broadcastInDim S2048x2 ![] bcast_S_S2048x2 : (⟨S_, .i32⟩ : BufTy).Contents (Elt F) → (⟨S2048x2, .i32⟩ : BufTy).Contents (Elt F)),
    binary main_arg5 main_v27 main_v28 (cmpi .slt : (⟨S2048x2, .i32⟩ : BufTy).Contents (Elt F) → (⟨S2048x2, .i32⟩ : BufTy).Contents (Elt F) → (⟨S2048x2, .i1⟩ : BufTy).Contents (Elt F)),
    nullary main_c_6 (constantI S_ 32 12#32),
    unary main_c_6 main_v29 (broadcastInDim S2048x2 ![] bcast_S_S2048x2 : (⟨S_, .i32⟩ : BufTy).Contents (Elt F) → (⟨S2048x2, .i32⟩ : BufTy).Contents (Elt F)),
    binary main_arg5 main_v29 main_v30 (addi : (⟨S2048x2, .i32⟩ : BufTy).Contents (Elt F) → (⟨S2048x2, .i32⟩ : BufTy).Contents (Elt F) → (⟨S2048x2, .i32⟩ : BufTy).Contents (Elt F)),
    ternary main_v28 main_v30 main_arg5 main_v31 (select : (⟨S2048x2, .i1⟩ : BufTy).Contents (Elt F) → (⟨S2048x2, .i32⟩ : BufTy).Contents (Elt F) → (⟨S2048x2, .i32⟩ : BufTy).Contents (Elt F) → (⟨S2048x2, .i32⟩ : BufTy).Contents (Elt F)),
    unary main_v31 main_v32 (broadcastInDim S2048x2x1 ![0, 1] bcast_S2048x2_S2048x2x1_0_1 : (⟨S2048x2, .i32⟩ : BufTy).Contents (Elt F) → (⟨S2048x2x1, .i32⟩ : BufTy).Contents (Elt F)),
    binary main_arg3 main_v32 main_v33 ((fun x i => Host.gather gather_S12_S2048x2x1_S2048x2_n_0_n_n_0_2_1 x i) : (⟨S12, .f32⟩ : BufTy).Contents (Elt F) → (⟨S2048x2x1, .i32⟩ : BufTy).Contents (Elt F) → (⟨S2048x2, .f32⟩ : BufTy).Contents (Elt F)),
    binary main_v26 main_v33 main_v34 ((fun l r => Host.dotGeneral dot_S16384x2048_S2048x2_S16384x2_1_0_0_1_n_n none l r) : (⟨S16384x2048, .f32⟩ : BufTy).Contents (Elt F) → (⟨S2048x2, .f32⟩ : BufTy).Contents (Elt F) → (⟨S16384x2, .f32⟩ : BufTy).Contents (Elt F)),
    unary main_v34 main_v35 (Host.tanh : (⟨S16384x2, .f32⟩ : BufTy).Contents (Elt F) → (⟨S16384x2, .f32⟩ : BufTy).Contents (Elt F)),
    unary main_cst main_v36 (broadcastInDim S1x2 ![1] bcast_S2_S1x2_1 : (⟨S2, .f32⟩ : BufTy).Contents (Elt F) → (⟨S1x2, .f32⟩ : BufTy).Contents (Elt F)),
    unary main_v36 main_v37 (broadcastInDim S16384x2 ![0, 1] bcast_S1x2_S16384x2_0_1 : (⟨S1x2, .f32⟩ : BufTy).Contents (Elt F) → (⟨S16384x2, .f32⟩ : BufTy).Contents (Elt F)),
    binary main_v35 main_v37 main_v38 (mulf : (⟨S16384x2, .f32⟩ : BufTy).Contents (Elt F) → (⟨S16384x2, .f32⟩ : BufTy).Contents (Elt F) → (⟨S16384x2, .f32⟩ : BufTy).Contents (Elt F)),
    unary main_cst_0 main_v39 (broadcastInDim S1x2 ![1] bcast_S2_S1x2_1 : (⟨S2, .f32⟩ : BufTy).Contents (Elt F) → (⟨S1x2, .f32⟩ : BufTy).Contents (Elt F)),
    unary main_v39 main_v40 (broadcastInDim S16384x2 ![0, 1] bcast_S1x2_S16384x2_0_1 : (⟨S1x2, .f32⟩ : BufTy).Contents (Elt F) → (⟨S16384x2, .f32⟩ : BufTy).Contents (Elt F)),
    binary main_v38 main_v40 main_v41 (addf : (⟨S16384x2, .f32⟩ : BufTy).Contents (Elt F) → (⟨S16384x2, .f32⟩ : BufTy).Contents (Elt F) → (⟨S16384x2, .f32⟩ : BufTy).Contents (Elt F)) ]

/-- The program is its operations run one after the other. -/
theorem main_eq (c : Dev nD) : main (F := F) c = seq ops := rfl

/-- No buffer of the signature is scoped: all 57 are tensor values of the program. -/
theorem scopedRefs_eq : (Finset.univ.filter fun b : Ref sig .tc => b.isScoped) = ∅ := by decide

/-- The signature has no semaphore, so none is scoped. -/
theorem scopedSems_eq : (Finset.univ.filter fun sm : SemLoc sig => sm.isScoped .tc) = ∅ := by decide

/-- Every operation reads and writes buffers of the one core only. -/
theorem ops_sub : (ops : List (HloOp τ sig (Elt F))).Forall fun op => op.bufs ⊆ tcRefs τ sig :=
  ⟨nullary_bufs_sub .., nullary_bufs_sub .., unary_bufs_sub .., unary_bufs_sub .., unary_bufs_sub .., unary_bufs_sub ..,
   binary_bufs_sub .., unary_bufs_sub .., unary_bufs_sub .., binary_bufs_sub .., unary_bufs_sub .., binary_bufs_sub ..,
   unary_bufs_sub .., reshape_bufs_sub ..,
   nullary_bufs_sub .., unary_bufs_sub .., binary_bufs_sub .., nullary_bufs_sub .., unary_bufs_sub .., binary_bufs_sub ..,
   ternary_bufs_sub .., unary_bufs_sub ..,
   binary_bufs_sub .., nullary_bufs_sub .., binary_bufs_sub ..,
   unary_bufs_sub .., nullary_bufs_sub .., binary_bufs_sub .., unary_bufs_sub .., nullary_bufs_sub .., unary_bufs_sub ..,
   binary_bufs_sub .., unary_bufs_sub .., binary_bufs_sub ..,
   nullary_bufs_sub .., unary_bufs_sub .., binary_bufs_sub .., nullary_bufs_sub .., unary_bufs_sub .., binary_bufs_sub ..,
   ternary_bufs_sub .., unary_bufs_sub .., binary_bufs_sub ..,
   binary_bufs_sub .., unary_bufs_sub .., unary_bufs_sub .., unary_bufs_sub .., binary_bufs_sub .., unary_bufs_sub ..,
   unary_bufs_sub .., binary_bufs_sub ..⟩

/-- On every device, from any memory with zero counters: every weakly fair execution of @main terminates with the result
    at the composed term of the arguments, and the arguments unchanged. The result buffer is written last, by the sum
    %41; read back through the operations, each buffer is its operation's function of the buffers it reads, down to the
    six arguments, which no operation writes. That composition is the staged term: memberships, indices, strengths,
    shares, centres, outputs. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v41).trans (by after_results_simp; rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp)⟩)
    (run_seq scopedRefs_eq scopedSems_eq defs main (fun _ => ops) main_eq (fun _ => ops_sub) m ρ)

end Cert.ReferenceIdeal.Hand

end
-- ==== Proof.RefStrength.lean ====
/-
  The reference's firing strengths read at an index: entry (b, r) is the least of the six memberships rule `r` names,
  on sample `b`'s inputs.
-/
import proofs.«413456_j44873818308905_2_alg».proof.Proof.RefTerm
import proofs.«413456_j44873818308905_2_alg».proof.Proof.Gen.ReferenceIdeal
import proofs.«413456_j44873818308905_2_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.Lib.StableHlo.Predicate
import Idealize.ShloMosaic.PureOps.Ideal.Laws

noncomputable section

namespace Cert.ReferenceIdeal.Hand

open Idealize.ShloMosaic Idealize.ShloMosaic.ValueIdx Cert.ReferenceIdeal

/-! ## The two broadcasts under the memberships -/

/-- A sample's input `v`, copied along the set axis: entry (b, v, j) of the broadcast is `a0 (b, v)`. -/
theorem bcastInput_apply (h0 : S16384x6.BroadcastsInDim S16384x6x1 (![0, 1] : Fin 2 → Fin S16384x6x1.rank))
    (h1 : S16384x6x1.BroadcastsInDim S16384x6x5 (![0, 1, 2] : Fin 3 → Fin S16384x6x5.rank))
    (a0 : FVec Ideal S16384x6 .f32) (b : Fin 16384) (v : Fin 6) (j : Fin 5) :
    broadcastInDim S16384x6x5 ![0, 1, 2] h1 (broadcastInDim S16384x6x1 ![0, 1] h0 a0) (ix3 b v j) = a0 (ix2 b v) := by
  refine (broadcastInDim_apply _ _ _ (ix3 b v j) (ix3 b v (0 : Fin 1)) ?_).trans
    (broadcastInDim_apply _ _ _ (ix3 b v (0 : Fin 1)) (ix2 b v) ?_)
  · intro a
    match a with
    | ⟨0, _⟩ => rfl
    | ⟨1, _⟩ => rfl
    | ⟨2, _⟩ => rfl
  · intro a
    match a with
    | ⟨0, _⟩ => rfl
    | ⟨1, _⟩ => rfl

/-- A table over (input, set), copied along the sample axis: entry (b, v, j) of the broadcast is `t (v, j)`. -/
theorem bcastTable_apply (h0 : S6x5.BroadcastsInDim S1x6x5 (![1, 2] : Fin 2 → Fin S1x6x5.rank))
    (h1 : S1x6x5.BroadcastsInDim S16384x6x5 (![0, 1, 2] : Fin 3 → Fin S16384x6x5.rank))
    (t : FVec Ideal S6x5 .f32) (b : Fin 16384) (v : Fin 6) (j : Fin 5) :
    broadcastInDim S16384x6x5 ![0, 1, 2] h1 (broadcastInDim S1x6x5 ![1, 2] h0 t) (ix3 b v j) = t (ix2 v j) := by
  refine (broadcastInDim_apply _ _ _ (ix3 b v j) (ix3 (0 : Fin 1) v j) ?_).trans
    (broadcastInDim_apply _ _ _ (ix3 (0 : Fin 1) v j) (ix2 v j) ?_)
  · intro a
    match a with
    | ⟨0, _⟩ => rfl
    | ⟨1, _⟩ => rfl
    | ⟨2, _⟩ => rfl
  · intro a
    match a with
    | ⟨0, _⟩ => rfl
    | ⟨1, _⟩ => rfl

/-! ## The memberships laid flat -/

/-- Flat entry `k` of sample `b` is the membership of input `k / 5` in its set `k % 5`: the reshape keeps row-major
    order, and (b·6 + k/5)·5 + k%5 = b·30 + k. -/
theorem refFuzz_apply (a0 : FVec Ideal S16384x6 .f32) (a1 a2 : FVec Ideal S6x5 .f32) (b : Fin 16384) (k : Fin 30) :
    refFuzz (F := Ideal) a0 a1 a2 (ix2 b k)
      = Fuzzy.memb (fun v => a0 (ix2 b v)) a1 a2 ⟨k.val / 5, by omega⟩ ⟨k.val % 5, by omega⟩ := by
  unfold refFuzz
  refine (shapeCast_apply _ _ (ix2 b k) (ix3 b ⟨k.val / 5, by omega⟩ ⟨k.val % 5, by omega⟩) ?_).trans ?_
  · rw [Shape.rowMajor_val_three, Shape.rowMajor_val_two]
    show (b.val * 6 + k.val / 5) * 5 + k.val % 5 = b.val * 30 + k.val
    omega
  · simp only [Host.exp, mulf, Host.negf, Host.divf, subf]
    rw [bcastInput_apply _ _ a0 b ⟨k.val / 5, by omega⟩ ⟨k.val % 5, by omega⟩,
      bcastTable_apply _ _ a1 b ⟨k.val / 5, by omega⟩ ⟨k.val % 5, by omega⟩,
      bcastTable_apply _ _ a2 b ⟨k.val / 5, by omega⟩ ⟨k.val % 5, by omega⟩]
    rfl

/-! ## The antecedent indices -/

/-- A word below thirty is not negative as a signed integer, so the index is passed on as it is. -/
theorem refIdx_apply (a4 : IVec S2048x6 32) (r : Fin 2048) (i : Fin 6) (h : (a4 (ix2 r i)).toNat < 30) :
    refIdx a4 (ix3 r i (0 : Fin 1)) = a4 (ix2 r i) := by
  unfold refIdx
  refine (broadcastInDim_apply _ _ _ (ix3 r i (0 : Fin 1)) (ix2 r i) ?_).trans ?_
  · intro a
    match a with
    | ⟨0, _⟩ => rfl
    | ⟨1, _⟩ => rfl
  · rw [select_apply]
    have hc : cmpi .slt a4 (broadcastInDim S2048x6 ![] Facts₀.bcast_S_S2048x6 (constantI S_ 32 0#32)) (ix2 r i) = 0#1 := by
      refine eq_zero_of_ne_one ?_
      show ¬ IntOp.cmpi .slt (a4 (ix2 r i)) (broadcastInDim S2048x6 ![] Facts₀.bcast_S_S2048x6 (constantI S_ 32 0#32) (ix2 r i)) = 1#1
      rw [broadcastInDim_scalar_apply]
      show ¬ IntOp.cmpi .slt (a4 (ix2 r i)) 0#32 = 1#1
      rw [StableHlo.Predicate.slt_iff_toNat (by omega) (by decide)]
      simp
    rw [hc, select_zero]

/-! ## The gather -/

/-- The gather's dimension numbers, under a short name. -/
private abbrev gd : GatherDims S16384x30 S2048x6x1 S16384x2048x6 :=
  gather_S16384x30_S2048x6x1_S16384x2048x6_0_1_n_n_1_2_163841

/-- Result entry (b, r, i) of the gather is the operand's entry (b, s), `s` the start index at (r, i, 0) read signed and
    clamped into [0, 29]: axis 0 of the operand is an offset axis and carries `b`, axis 1 is collapsed and carries the
    clamped start index. -/
theorem gather_apply {α : Type} (fz : S16384x30.Idx → α) (idx : IVec S2048x6x1 32) (b : Fin 16384) (r : Fin 2048) (i : Fin 6) :
    Host.gather gd fz idx (ix3 b r i)
      = fz (ix2 b ⟨min (idx (ix3 r i (0 : Fin 1))).toInt.toNat 29, by omega⟩) := by
  unfold Host.gather
  congr 1
  funext a
  refine Fin.ext ?_
  match a with
  | ⟨0, _⟩ =>
    show gd.start (ix3 b r i) idx 0 + gd.batchCoord (ix3 b r i) 0 + gd.offCoord (ix3 b r i) 0 = b.val
    have hs : gd.start (ix3 b r i) idx 0 = 0 := by
      unfold GatherDims.start
      rw [dif_neg (show (0 : Fin S16384x30.rank) ∉ gd.startIndexMap by decide)]
    have hb : gd.batchCoord (ix3 b r i) 0 = 0 := GatherDims.batchCoord_eq_zero _ _ _ List.not_mem_nil
    have ho : gd.offCoord (ix3 b r i) 0 = b.val := by
      unfold GatherDims.offCoord
      rw [dif_pos (show (0 : Fin S16384x30.rank) ∈ gd.sKept by decide)]
      rfl
    rw [hs, hb, ho]
    omega
  | ⟨1, _⟩ =>
    show gd.start (ix3 b r i) idx 1 + gd.batchCoord (ix3 b r i) 1 + gd.offCoord (ix3 b r i) 1
      = min (idx (ix3 r i (0 : Fin 1))).toInt.toNat 29
    have hm : (1 : Fin S16384x30.rank) ∈ gd.startIndexMap := List.mem_singleton.mpr rfl
    have hb : gd.batchCoord (ix3 b r i) 1 = 0 := GatherDims.batchCoord_eq_zero _ _ _ List.not_mem_nil
    have ho : gd.offCoord (ix3 b r i) 1 = 0 :=
      GatherDims.offCoord_eq_zero _ _ _ (fun h => ((GatherDims.mem_sKept _ _).mp h).1 (List.mem_singleton.mpr rfl))
    rw [hb, ho]
    simp only [Nat.add_zero]
    unfold GatherDims.start
    rw [dif_pos hm]
    have hsi : gd.siIdx (ix3 b r i) ⟨List.idxOf (1 : Fin S16384x30.rank) gd.startIndexMap,
        List.idxOf_lt_length_iff.2 hm⟩ = ix3 r i (0 : Fin 1) := by
      funext c; refine Fin.ext ?_
      match c with
      | ⟨0, _⟩ => rfl
      | ⟨1, _⟩ => rfl
      | ⟨2, _⟩ => rfl
    rw [hsi]
    rfl

/-! ## The least over a rule's six antecedents -/

/-- The fold of `min` from `⊤` over six values is their nested minimum: `⊤` is the unit of `min`, which is associative. -/
theorem fold_min_six (g : Fin 6 → EReal) :
    (Finset.univ : Finset (Fin 6)).fold min ⊤ g
      = min (min (min (min (min (g 0) (g 1)) (g 2)) (g 3)) (g 4)) (g 5) := by
  simp only [Fin.univ_succ, Finset.fold_cons, Finset.fold_map, Finset.univ_eq_empty, Finset.fold_empty]
  show min (g 0) (min (g 1) (min (g 2) (min (g 3) (min (g 4) (min (g 5) ⊤))))) = _
  rw [min_top_right]
  simp only [min_assoc]

/-- The inserted index over (b, r) with coordinate `k` on the reduced axis is (b, r, k). -/
theorem lift_ix2 (hR : S16384x2048x6.Reduces [(2 : Fin S16384x2048x6.rank)] S16384x2048) (b : Fin 16384) (r : Fin 2048)
    (k : Fin 6) : hR.lift (ix2 b r) k = ix3 b r k := by
  funext c
  refine Fin.ext ?_
  match c with
  | ⟨0, _⟩ => rfl
  | ⟨1, _⟩ => rfl
  | ⟨2, _⟩ => rfl

/-- The pattern 0x7F800000 is +∞, the unit of `min`. -/
theorem ofBits_inf : Ideal.ofBits .f32 0x7F800000#32 = (⊤ : EReal) := by
  simp [Ideal.ofBits, Ideal.ieee]

/-- The reduction with `min` from +∞ over the last axis, at (b, r): the least of the six entries (b, r, 0) … (b, r, 5). -/
theorem reduceMin_apply (x : FVec Ideal S16384x2048x6 .f32) (b : Fin 16384) (r : Fin 2048) :
    Host.reduce (FloatOps.minimumf (F := Ideal) (φ := .f32)) x (constant (F := Ideal) S_ .f32 0x7F800000#32)
        Facts₀.reducesTo_S16384x2048x6_S16384x2048_d2 Facts₀.h_S_ (ix2 b r)
      = min (min (min (min (min (x (ix3 b r 0)) (x (ix3 b r 1))) (x (ix3 b r 2))) (x (ix3 b r 3))) (x (ix3 b r 4)))
          (x (ix3 b r 5)) := by
  have hR : S16384x2048x6.Reduces [(2 : Fin S16384x2048x6.rank)] S16384x2048 := by decide
  refine (Host.reduce_eq_fold_single _ _ _ _ hR _ _).trans ?_
  have hg : (x ∘ hR.lift (ix2 b r)) = fun k : Fin 6 => x (ix3 b r k) :=
    funext fun k => congrArg x (lift_ix2 hR b r k)
  rw [hg, constant_apply, ofBits_inf]
  exact fold_min_six _

/-- With every antecedent index in range, the gathered-and-minimised memberships are the network's firing strengths. -/
theorem refStrength_apply (a0 : FVec Ideal S16384x6 .f32) (a1 a2 : FVec Ideal S6x5 .f32) (a4 : IVec S2048x6 32)
    (hr : ∀ (r : Fin 2048) (i : Fin 6), (a4 (ix2 r i)).toNat < 30) (b : Fin 16384) (r : Fin 2048) :
    refStrength (F := Ideal) (refFuzz a0 a1 a2) (refIdx a4) (ix2 b r)
      = Fuzzy.strength (fun v => a0 (ix2 b v)) a1 a2 a4 r := by
  unfold refStrength
  refine (reduceMin_apply _ b r).trans ?_
  have hm : ∀ i : Fin 6, Host.gather gd (refFuzz (F := Ideal) a0 a1 a2) (refIdx a4) (ix3 b r i)
      = Fuzzy.membFlat (fun v => a0 (ix2 b v)) a1 a2 (Fuzzy.ante a4 r i) := by
    intro i
    have hlt := hr r i
    have hti : (a4 (ix2 r i)).toInt = ((a4 (ix2 r i)).toNat : Int) :=
      StableHlo.Predicate.toInt_eq_toNat_of_lt (by omega)
    have hk : (⟨min ((refIdx a4) (ix3 r i (0 : Fin 1))).toInt.toNat 29, by omega⟩ : Fin 30)
        = ⟨(a4 (ix2 r i)).toNat, hlt⟩ := by
      refine Fin.ext ?_
      show min ((refIdx a4) (ix3 r i (0 : Fin 1))).toInt.toNat 29 = (a4 (ix2 r i)).toNat
      rw [refIdx_apply a4 r i hlt, hti, Int.toNat_natCast]
      omega
    rw [gather_apply, hk, refFuzz_apply]
    unfold Fuzzy.membFlat Fuzzy.ante
    rw [dif_pos hlt]
  unfold Fuzzy.strength
  rw [← hm 0, ← hm 1, ← hm 2, ← hm 3, ← hm 4, ← hm 5]

end Cert.ReferenceIdeal.Hand

end
-- ==== Proof.RefOutputs.lean ====
/-
  The reference's last stages read at an index: from firing strengths to the squashed, scaled and shifted outputs.
-/
import proofs.«413456_j44873818308905_2_alg».proof.Proof.RefTerm
import proofs.«413456_j44873818308905_2_alg».proof.Proof.Gen.ReferenceIdeal
import proofs.«413456_j44873818308905_2_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.Hand

open Idealize.ShloMosaic Idealize.ShloMosaic.ValueIdx Cert.ReferenceIdeal
open Cert.ReferenceIdeal.Facts₀ Cert.ReferenceIdeal.Facts

/-- The shape relation of the row sum, in the form that names the inserted coordinate. -/
theorem redRow : S16384x2048.Reduces [1] S16384 := by decide

/-- Row `b` with the column `k` inserted is the entry `(b, k)`. -/
theorem lift_row (b : Fin 16384) (k : Fin 2048) : redRow.lift (ix1 b) k = ix2 b k := by
  funext a
  match a with
  | ⟨0, _⟩ => rfl
  | ⟨1, _⟩ => rfl

/-- Entry `b` of the row sums of the absolute values: the sum over the 2048 columns of |w (b, r)|, the initial value being zero. -/
theorem l1At (w : FVec Ideal S16384x2048 .f32) (b : Fin 16384) :
    Host.reduceAdd (Host.absf w) (constant (F := Ideal) S_ .f32 0x00000000#32) reducesTo_S16384x2048_S16384_d1 h_S_ (ix1 b)
      = ∑ r : Fin 2048, max (w (ix2 b r)) (-(w (ix2 b r))) := by
  rw [hostReduceAdd_apply, Ideal.hostReduceAdd_single reducesTo_S16384x2048_S16384_d1 redRow]
  rw [constant_apply, Ideal.ofBits_zero_f32, zero_add]
  refine Finset.sum_congr rfl fun r _ => ?_
  exact congrArg (fun i => max (w i) (-(w i))) (lift_row b r)

/-- The shares at `(b, r)`: the entry over the row's sum of absolute values, floored. -/
theorem refShare_apply (w : FVec Ideal S16384x2048 .f32) (b : Fin 16384) (r : Fin 2048) :
    refShare (F := Ideal) w (ix2 b r)
      = Ideal.div (w (ix2 b r)) (max (∑ r : Fin 2048, max (w (ix2 b r)) (-(w (ix2 b r)))) Fuzzy.floorLit) := by
  unfold refShare
  dsimp only
  rw [hostDivf_apply]
  refine congrArg (Ideal.div (w (ix2 b r))) ?_
  rw [broadcastInDim_apply ![0, 1] bcast_S16384x1_S16384x2048_0_1 _ (ix2 b r) (ix2 b (0 : Fin 1))
    (fun a => by match a with | ⟨0, _⟩ => rfl | ⟨1, _⟩ => rfl)]
  rw [maximumf_apply]
  rw [broadcastInDim_apply ![0] bcast_S16384_S16384x1_0 _ (ix2 b (0 : Fin 1)) (ix1 b)
    (fun a => by match a with | ⟨0, _⟩ => rfl)]
  rw [broadcastInDim_scalar_apply, constant_apply, l1At]
  rfl

/-- The left operand's row is the result's row. -/
theorem dot_lhs0 (j : S16384x2.Idx) (k : dot_S16384x2048_S2048x2_S16384x2_1_0_0_1_n_n.contr.Idx) : (dot_S16384x2048_S2048x2_S16384x2_1_0_0_1_n_n.lhsIdx j k 0).val = (j 0).val := by
  simp [DotDims.lhsIdx, dot_S16384x2048_S2048x2_S16384x2_1_0_0_1_n_n]; rfl

/-- The left operand's column is the contraction coordinate. -/
theorem dot_lhs1 (j : S16384x2.Idx) (k : dot_S16384x2048_S2048x2_S16384x2_1_0_0_1_n_n.contr.Idx) : (dot_S16384x2048_S2048x2_S16384x2_1_0_0_1_n_n.lhsIdx j k 1).val = (k ⟨0, by decide⟩).val :=
  DotDims.lhsIdx_val_of_single dot_S16384x2048_S2048x2_S16384x2_1_0_0_1_n_n rfl j k

/-- The right operand's row is the contraction coordinate. -/
theorem dot_rhs0 (j : S16384x2.Idx) (k : dot_S16384x2048_S2048x2_S16384x2_1_0_0_1_n_n.contr.Idx) : (dot_S16384x2048_S2048x2_S16384x2_1_0_0_1_n_n.rhsIdx j k 0).val = (k ⟨0, by decide⟩).val :=
  DotDims.rhsIdx_val_of_single dot_S16384x2048_S2048x2_S16384x2_1_0_0_1_n_n rfl j k

/-- The right operand's column is the result's column. -/
theorem dot_rhs1 (j : S16384x2.Idx) (k : dot_S16384x2048_S2048x2_S16384x2_1_0_0_1_n_n.contr.Idx) : (dot_S16384x2048_S2048x2_S16384x2_1_0_0_1_n_n.rhsIdx j k 1).val = (j 1).val := by
  simp [DotDims.rhsIdx, dot_S16384x2048_S2048x2_S16384x2_1_0_0_1_n_n]; rfl

/-- The product at `(b, o)`: the sum over the 2048 contracted coordinates of the products of the entries. -/
theorem dotAt (l : FVec Ideal S16384x2048 .f32) (rr : FVec Ideal S2048x2 .f32) (b : Fin 16384) (o : Fin 2) :
    Host.dotGeneral dot_S16384x2048_S2048x2_S16384x2_1_0_0_1_n_n none l rr (ix2 b o) = ∑ k : Fin 2048, l (ix2 b k) * rr (ix2 k o) := by
  show FloatOps.dotGeneral dot_S16384x2048_S2048x2_S16384x2_1_0_0_1_n_n none _ l rr (ix2 b o) = _
  rw [Ideal.dotGeneral_apply, ← Equiv.sum_comp (contrEquiv1 dot_S16384x2048_S2048x2_S16384x2_1_0_0_1_n_n 2048 rfl rfl).symm]
  refine Finset.sum_congr rfl fun c _ => ?_
  have c2 := contrEquiv1_symm_val dot_S16384x2048_S2048x2_S16384x2_1_0_0_1_n_n 2048 rfl rfl c
  have l2 : dot_S16384x2048_S2048x2_S16384x2_1_0_0_1_n_n.lhsIdx (ix2 b o) ((contrEquiv1 dot_S16384x2048_S2048x2_S16384x2_1_0_0_1_n_n 2048 rfl rfl).symm c) = ix2 b c := by
    funext ax; apply Fin.ext
    match ax with
    | ⟨0, _⟩ => exact dot_lhs0 _ _
    | ⟨1, _⟩ => exact (dot_lhs1 _ _).trans c2
  have r2 : dot_S16384x2048_S2048x2_S16384x2_1_0_0_1_n_n.rhsIdx (ix2 b o) ((contrEquiv1 dot_S16384x2048_S2048x2_S16384x2_1_0_0_1_n_n 2048 rfl rfl).symm c) = ix2 c o := by
    funext ax; apply Fin.ext
    match ax with
    | ⟨0, _⟩ => exact (dot_rhs0 _ _).trans c2
    | ⟨1, _⟩ => exact dot_rhs1 _ _
  rw [l2, r2]

/-- A one-axis index of the two-entry rows is, in row-major order, its coordinate. -/
theorem rowMajor_ix1 (o : Fin 2) : (S2.rowMajor (ix1 o) : Fin 2) = o :=
  Fin.ext (Shape.rowMajor_val_one (ix1 o))

/-- The row of scales, laid along the columns and repeated over the rows, reads at `(b, o)` the scale of output `o`. -/
theorem scaleAt (b : Fin 16384) (o : Fin 2) :
    broadcastInDim S16384x2 ![0, 1] bcast_S1x2_S16384x2_0_1
      (broadcastInDim S1x2 ![1] bcast_S2_S1x2_1
        (fun i => (FloatOps.ofBits .f32 (lit0 (S2.rowMajor i)) : Ideal .f32))) (ix2 b o)
      = Ideal.ofBits .f32 (Fuzzy.scaleWord o) := by
  rw [broadcastInDim_apply ![0, 1] bcast_S1x2_S16384x2_0_1 _ (ix2 b o) (ix2 (0 : Fin 1) o)
    (fun a => by match a with | ⟨0, _⟩ => rfl | ⟨1, _⟩ => rfl)]
  rw [broadcastInDim_apply ![1] bcast_S2_S1x2_1 _ (ix2 (0 : Fin 1) o) (ix1 o)
    (fun a => by match a with | ⟨0, _⟩ => rfl)]
  show Ideal.ofBits .f32 (lit0 (S2.rowMajor (ix1 o))) = _
  rw [rowMajor_ix1]
  match o with
  | ⟨0, _⟩ => rfl
  | ⟨1, _⟩ => rfl

/-- The row of shifts likewise reads at `(b, o)` the shift of output `o`. -/
theorem shiftAt (b : Fin 16384) (o : Fin 2) :
    broadcastInDim S16384x2 ![0, 1] bcast_S1x2_S16384x2_0_1
      (broadcastInDim S1x2 ![1] bcast_S2_S1x2_1
        (fun i => (FloatOps.ofBits .f32 (lit1 (S2.rowMajor i)) : Ideal .f32))) (ix2 b o)
      = Ideal.ofBits .f32 (Fuzzy.shiftWord o) := by
  rw [broadcastInDim_apply ![0, 1] bcast_S1x2_S16384x2_0_1 _ (ix2 b o) (ix2 (0 : Fin 1) o)
    (fun a => by match a with | ⟨0, _⟩ => rfl | ⟨1, _⟩ => rfl)]
  rw [broadcastInDim_apply ![1] bcast_S2_S1x2_1 _ (ix2 (0 : Fin 1) o) (ix1 o)
    (fun a => by match a with | ⟨0, _⟩ => rfl)]
  show Ideal.ofBits .f32 (lit1 (S2.rowMajor (ix1 o))) = _
  rw [rowMajor_ix1]
  match o with
  | ⟨0, _⟩ => rfl
  | ⟨1, _⟩ => rfl

/-- The host's tanh at an index is the extended reals' tanh of the entry. -/
theorem hostTanh_apply {s : Shape} (v : FVec Ideal s .f32) (i : s.Idx) : Host.tanh v i = Ideal.tanh (v i) := rfl

/-- If `w` holds the network's firing strengths of the batch `x`, the reference's shares, weighted sums, tanh, scale and
    shift of `w` and the output-centre table `ow` are the network's result array. -/
theorem refTail_eq (w : FVec Ideal S16384x2048 .f32) (ow : FVec Ideal S2048x2 .f32) (x : FVec Ideal S16384x6 .f32)
    (cen wid : FVec Ideal S6x5 .f32) (ir : IVec S2048x6 32)
    (hw : ∀ (b : Fin 16384) (r : Fin 2048), w (ix2 b r) = Fuzzy.strength (fun v => x (ix2 b v)) cen wid ir r) :
    refTail (F := Ideal) (refShare w) ow = Fuzzy.result cen wid ir ow x := by
  funext j
  obtain ⟨b, o, rfl⟩ : ∃ (b : Fin 16384) (o : Fin 2), j = ix2 b o := ⟨j 0, j 1, eq_ix2 j⟩
  rw [Fuzzy.result_ix2]
  -- each share is the network's share: the strengths are the network's, and so is their L¹ norm
  have hs : ∀ r : Fin 2048, refShare (F := Ideal) w (ix2 b r) = Fuzzy.share (fun v => x (ix2 b v)) cen wid ir r := by
    intro r
    rw [refShare_apply]
    unfold Fuzzy.share Fuzzy.l1
    simp only [hw]
  unfold refTail
  dsimp only
  rw [addf_apply, mulf_apply, scaleAt, shiftAt]
  rw [hostTanh_apply, dotAt]
  unfold Fuzzy.outAt Fuzzy.crisp
  simp only [hs]

end Cert.ReferenceIdeal.Hand

end
-- ==== Proof.lean ====
/-
  The kernel tiles the batch of 16384 samples into sixteen blocks of 1024 and computes, for each sample, a fuzzy-rule
  network: thirty Gaussian memberships of the six inputs; for each of 2048 rules the least of the six memberships it names
  (the kernel picks a named membership by a product with a one-hot table, the reference by a gather: with every index in
  [0, 30) the product with the one-hot row is the named entry, since the other terms are products with zero); the
  strengths divided by their floored L¹ norm; the shares weighted with the rules' output centres and summed; tanh, scale
  and shift. The kernel writes the result transposed, block by block, and the host transposes it back; the reference
  computes it whole. Both are the one function `Fuzzy.result` of the arguments (Proof/Spec.lean): the kernel's by reading
  one block at an index and tiling (Proof/KerBody.lean, Proof/KerValue.lean), the reference's stage by stage
  (Proof/RefStrength.lean, Proof/RefOutputs.lean) over its run (Proof/RefRun.lean). The precondition's last conjunct puts
  the indices in range (Proof/PreRange.lean).
-/
import proofs.«413456_j44873818308905_2_alg».proof.Defs
import proofs.«413456_j44873818308905_2_alg».proof.Proof.Gen.Kernel
import proofs.«413456_j44873818308905_2_alg».proof.Proof.Gen.Kernel.Skeleton
import proofs.«413456_j44873818308905_2_alg».proof.Proof.Gen.Kernel.Launch
import proofs.«413456_j44873818308905_2_alg».proof.Proof.Gen.Kernel.Points
import proofs.«413456_j44873818308905_2_alg».proof.Proof.Gen.Kernel.Frame
import proofs.«413456_j44873818308905_2_alg».proof.Proof.Gen.KernelIdeal
import proofs.«413456_j44873818308905_2_alg».proof.Proof.Gen.KernelIdeal.Skeleton
import proofs.«413456_j44873818308905_2_alg».proof.Proof.Gen.KernelIdeal.Launch
import proofs.«413456_j44873818308905_2_alg».proof.Proof.Gen.KernelIdeal.Points
import proofs.«413456_j44873818308905_2_alg».proof.Proof.Gen.KernelIdeal.Frame
import proofs.«413456_j44873818308905_2_alg».proof.Proof.Gen.ReferenceIdeal
import proofs.«413456_j44873818308905_2_alg».proof.Proof.Gen.Pre_finite_inputs
import proofs.«413456_j44873818308905_2_alg».proof.Proof.Spec
import proofs.«413456_j44873818308905_2_alg».proof.Proof.PreRange
import proofs.«413456_j44873818308905_2_alg».proof.Proof.KerValue
import proofs.«413456_j44873818308905_2_alg».proof.Proof.RefRun
import proofs.«413456_j44873818308905_2_alg».proof.Proof.RefStrength
import proofs.«413456_j44873818308905_2_alg».proof.Proof.RefOutputs
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The reference's result term is the network's result on the batch, when every antecedent index is in range. -/
theorem refOut_eq (a0 : FVec Ideal Cert.ReferenceIdeal.S16384x6 .f32) (a1 a2 : FVec Ideal Cert.ReferenceIdeal.S6x5 .f32)
    (a3 : FVec Ideal Cert.ReferenceIdeal.S12 .f32) (a4 : IVec Cert.ReferenceIdeal.S2048x6 32) (a5 : IVec Cert.ReferenceIdeal.S2048x2 32)
    (hr : ∀ (r : Fin 2048) (i : Fin 6), (a4 (ix2 r i)).toNat < 30) :
    Cert.ReferenceIdeal.Hand.refOut (F := Ideal) a0 a1 a2 a3 a4 a5
      = Fuzzy.result a1 a2 a4 (Cert.ReferenceIdeal.Hand.refOw (F := Ideal) a3 a5) a0 :=
  Cert.ReferenceIdeal.Hand.refTail_eq _ _ a0 a1 a2 a4 fun b r => Cert.ReferenceIdeal.Hand.refStrength_apply a0 a1 a2 a4 hr b r

/-- Both programs gather the rules' output centres with the same operations. -/
theorem ow_eq (a3 : FVec Ideal Cert.ReferenceIdeal.S12 .f32) (a5 : IVec Cert.ReferenceIdeal.S2048x2 32) :
    Cert.ReferenceIdeal.Hand.refOw (F := Ideal) a3 a5 = Cert.KernelIdeal.Hand.kerOw (F := Ideal) a3 a5 := rfl

/-- From memories agreeing on the arguments, both programs end with the network's result on the batch. -/
theorem algebraic : Cert.algebraic_KernelIdeal_ReferenceIdeal := by
  intro m ρ m' ρ' hpre hagree
  have hr : ∀ (c : Dev Cert.KernelIdeal.nD) (r : Fin 2048) (i : Fin 6),
      ((m ((c : Thread Cert.KernelIdeal.nD Cert.KernelIdeal.τ).loc Cert.KernelIdeal.main_arg4) : Cert.KernelIdeal.S2048x6.Idx → BitVec 32) (ix2 r i)).toNat < 30 :=
    fun c => Cert.Pre_finite_inputs.Hand.range_of_pre _ _ _ _ _ _ (hpre c)
  refine ⟨_, Cert.KernelIdeal.Hand.run m ρ hr, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2.1, (hagree c).2.2.2.2.1, (hagree c).2.2.2.2.2]
  exact (refOut_eq _ _ _ _ _ _ (hr c)).trans (by rw [ow_eq])

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
